-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8000000x3 : Shape := ⟨2, ![8000000, 3]⟩
abbrev S8000000x4 : Shape := ⟨2, ![8000000, 4]⟩
abbrev S_ : Shape := ⟨0, ![]⟩

class Facts : Prop where
  bcast_S_S8000000x3 : S_.BroadcastsInDim S8000000x3 (![] : Fin 0 → Fin S8000000x3.rank)
  reducesTo_S8000000x3_S_d0_1 : S8000000x3.ReducesTo [0, 1] S_
  h_S_ : 0 < S_.numel
  bcast_S_S8000000x4 : S_.BroadcastsInDim S8000000x4 (![] : Fin 0 → Fin S8000000x4.rank)
  reducesTo_S8000000x4_S_d0_1 : S8000000x4.ReducesTo [0, 1] S_

variable [Facts]

def fn {F : FTy → Type} [FloatOps F] (main_arg0 : FVec F S8000000x3 .f32) (main_arg1 : FVec F S8000000x4 .f32) : IVec S_ 1 :=
  let main_v0 : FVec F S8000000x3 .f32 := Host.absf main_arg0
  let main_cst : FVec F S_ .f32 := constant S_ .f32 0x7F800000#32
  let main_v1 : FVec F S8000000x3 .f32 := broadcastInDim S8000000x3 ![] bcast_S_S8000000x3 main_cst
  let main_v2 : IVec S8000000x3 1 := cmpf .olt main_v0 main_v1
  let main_c : IVec S_ 1 := constantI S_ 1 1#1
  let main_v3 : IVec S_ 1 := (fun x v => Host.reduce IntOp.andi x v reducesTo_S8000000x3_S_d0_1 h_S_) main_v2 main_c
  let main_v4 : FVec F S8000000x4 .f32 := Host.absf main_arg1
  let main_cst_0 : FVec F S_ .f32 := constant S_ .f32 0x7F800000#32
  let main_v5 : FVec F S8000000x4 .f32 := broadcastInDim S8000000x4 ![] bcast_S_S8000000x4 main_cst_0
  let main_v6 : IVec S8000000x4 1 := cmpf .olt main_v4 main_v5
  let main_c_1 : IVec S_ 1 := constantI S_ 1 1#1
  let main_v7 : IVec S_ 1 := (fun x v => Host.reduce IntOp.andi x v reducesTo_S8000000x4_S_d0_1 h_S_) main_v6 main_c_1
  let main_v8 : IVec S_ 1 := andi main_v3 main_v7
  main_v8
-- ==== Kernel.lean ====
abbrev S8000000x3 : Shape := ⟨2, ![8000000, 3]⟩
abbrev S8000000x4 : Shape := ⟨2, ![8000000, 4]⟩
abbrev S3x8000000 : Shape := ⟨2, ![3, 8000000]⟩
abbrev S4x8000000 : Shape := ⟨2, ![4, 8000000]⟩
abbrev S9x8000000 : Shape := ⟨2, ![9, 8000000]⟩
abbrev S3x32000 : Shape := ⟨2, ![3, 32000]⟩
abbrev S4x32000 : Shape := ⟨2, ![4, 32000]⟩
abbrev S9x32000 : Shape := ⟨2, ![9, 32000]⟩
abbrev S32000 : Shape := ⟨1, ![32000]⟩
abbrev S1x32000 : Shape := ⟨2, ![1, 32000]⟩
abbrev S8000000x9 : Shape := ⟨2, ![8000000, 9]⟩
abbrev S8000000x3x3 : Shape := ⟨3, ![8000000, 3, 3]⟩

abbrev nBuf : Space → Nat
  | .hbm => 7
  | .vmem => 6
  | .smem => 0
  | _ => 0

abbrev bufTy : (tb : Table) → Fin (tcTables nBuf tb) → BufTy
  | .hbm, ⟨0, _⟩ => ⟨S8000000x3, .f32⟩
  | .hbm, ⟨1, _⟩ => ⟨S8000000x4, .f32⟩
  | .hbm, ⟨2, _⟩ => ⟨S3x8000000, .f32⟩
  | .hbm, ⟨3, _⟩ => ⟨S4x8000000, .f32⟩
  | .hbm, ⟨4, _⟩ => ⟨S9x8000000, .f32⟩
  | .hbm, ⟨5, _⟩ => ⟨S8000000x9, .f32⟩
  | .hbm, ⟨6, _⟩ => ⟨S8000000x3x3, .f32⟩
  | .local _ .vmem, ⟨0, _⟩ => ⟨S3x32000, .f32⟩
  | .local _ .vmem, ⟨1, _⟩ => ⟨S3x32000, .f32⟩
  | .local _ .vmem, ⟨2, _⟩ => ⟨S4x32000, .f32⟩
  | .local _ .vmem, ⟨3, _⟩ => ⟨S4x32000, .f32⟩
  | .local _ .vmem, ⟨4, _⟩ => ⟨S9x32000, .f32⟩
  | .local _ .vmem, ⟨5, _⟩ => ⟨S9x32000, .f32⟩
  | _, _ => ⟨S8000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S3x32000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x32000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S9x32000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  transposes_S8000000x3_S3x8000000_1_0 : S8000000x3.Transposes [1, 0] S3x8000000
  transposes_S8000000x4_S4x8000000_1_0 : S8000000x4.Transposes [1, 0] S4x8000000
  inb_S3x32000_S3x32000_0_0 : ∀ a, (![0, 0] : Fin 2 → Nat) a + S3x32000.size a ≤ S3x32000.size a
  h_S3x32000 : 0 < S3x32000.numel
  shapeCasts_S3x32000_S3x32000 : S3x32000.ShapeCasts S3x32000
  inb_S4x32000_S4x32000_0_0 : ∀ a, (![0, 0] : Fin 2 → Nat) a + S4x32000.size a ≤ S4x32000.size a
  h_S4x32000 : 0 < S4x32000.numel
  shapeCasts_S4x32000_S4x32000 : S4x32000.ShapeCasts S4x32000
  reduces_S4x32000_S32000 : S4x32000.Reduces [0] S32000
  shapeCasts_S32000_S1x32000 : S32000.ShapeCasts S1x32000
  broadcasts_S1x32000_S4x32000 : S1x32000.Broadcasts S4x32000
  slices_S4x32000_o0_0_S1x32000 : S4x32000.Slices ![0, 0] S1x32000
  slices_S4x32000_o1_0_S1x32000 : S4x32000.Slices ![1, 0] S1x32000
  slices_S4x32000_o2_0_S1x32000 : S4x32000.Slices ![2, 0] S1x32000
  slices_S4x32000_o3_0_S1x32000 : S4x32000.Slices ![3, 0] S1x32000
  slices_S3x32000_o0_0_S1x32000 : S3x32000.Slices ![0, 0] S1x32000
  slices_S3x32000_o1_0_S1x32000 : S3x32000.Slices ![1, 0] S1x32000
  slices_S3x32000_o2_0_S1x32000 : S3x32000.Slices ![2, 0] S1x32000
  inb_S9x32000_S1x32000_0_0 : ∀ a, (![0, 0] : Fin 2 → Nat) a + S1x32000.size a ≤ S9x32000.size a
  h_S1x32000 : 0 < S1x32000.numel
  inb_S9x32000_S1x32000_1_0 : ∀ a, (![1, 0] : Fin 2 → Nat) a + S1x32000.size a ≤ S9x32000.size a
  inb_S9x32000_S1x32000_2_0 : ∀ a, (![2, 0] : Fin 2 → Nat) a + S1x32000.size a ≤ S9x32000.size a
  inb_S9x32000_S1x32000_3_0 : ∀ a, (![3, 0] : Fin 2 → Nat) a + S1x32000.size a ≤ S9x32000.size a
  inb_S9x32000_S1x32000_4_0 : ∀ a, (![4, 0] : Fin 2 → Nat) a + S1x32000.size a ≤ S9x32000.size a
  inb_S9x32000_S1x32000_5_0 : ∀ a, (![5, 0] : Fin 2 → Nat) a + S1x32000.size a ≤ S9x32000.size a
  inb_S9x32000_S1x32000_6_0 : ∀ a, (![6, 0] : Fin 2 → Nat) a + S1x32000.size a ≤ S9x32000.size a
  inb_S9x32000_S1x32000_7_0 : ∀ a, (![7, 0] : Fin 2 → Nat) a + S1x32000.size a ≤ S9x32000.size a
  inb_S9x32000_S1x32000_8_0 : ∀ a, (![8, 0] : Fin 2 → Nat) a + S1x32000.size a ≤ S9x32000.size a
  transposes_S9x8000000_S8000000x9_1_0 : S9x8000000.Transposes [1, 0] S8000000x9
  shapeCasts_S8000000x9_S8000000x3x3 : S8000000x9.ShapeCasts S8000000x3x3
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x32000.size a ≤ S3x8000000.size a
  hwx0_0 : ∀ i : grid0.Coords, EltTy.bits .f32 = 32 ∨ (Rect.block (s := S3x8000000) S3x32000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x32000.size a ≤ S4x8000000.size a
  hwx0_1 : ∀ i : grid0.Coords, EltTy.bits .f32 = 32 ∨ (Rect.block (s := S4x8000000) S4x32000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S9x32000.size a ≤ S9x8000000.size a
  hwx0_2 : ∀ i : grid0.Coords, EltTy.bits .f32 = 32 ∨ (Rect.block (s := S9x8000000) S9x32000.size (cc0_transform_2 i) (hinb0_2 i)).WholeWords (EltTy.packing .f32)

variable [Facts₀]

abbrev win0_0 : Pipeline.Window sig grid0 :=
  Pipeline.Window.ofSpec (Memref.whole main_v0) S3x32000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4x32000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S9x32000.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8000000x3 : Shape := ⟨2, ![8000000, 3]⟩
abbrev S8000000x4 : Shape := ⟨2, ![8000000, 4]⟩
abbrev S_ : Shape := ⟨0, ![]⟩
abbrev S8000000 : Shape := ⟨1, ![8000000]⟩
abbrev S8000000x1 : Shape := ⟨2, ![8000000, 1]⟩
abbrev S8000000x9 : Shape := ⟨2, ![8000000, 9]⟩
abbrev S8000000x3x3 : Shape := ⟨3, ![8000000, 3, 3]⟩
abbrev S8000000x1x3 : Shape := ⟨3, ![8000000, 1, 3]⟩

abbrev nBuf : Space → Nat
  | .hbm => 127
  | .vmem => 0
  | .smem => 0
  | _ => 0

abbrev bufTy : (tb : Table) → Fin (tcTables nBuf tb) → BufTy
  | .hbm, ⟨0, _⟩ => ⟨S8000000x3, .f32⟩
  | .hbm, ⟨1, _⟩ => ⟨S8000000x4, .f32⟩
  | .hbm, ⟨2, _⟩ => ⟨S8000000x3, .f32⟩
  | .hbm, ⟨3, _⟩ => ⟨S8000000x4, .f32⟩
  | .hbm, ⟨4, _⟩ => ⟨S_, .f32⟩
  | .hbm, ⟨5, _⟩ => ⟨S8000000, .f32⟩
  | .hbm, ⟨6, _⟩ => ⟨S8000000x1, .f32⟩
  | .hbm, ⟨7, _⟩ => ⟨S8000000x1, .f32⟩
  | .hbm, ⟨8, _⟩ => ⟨S_, .f32⟩
  | .hbm, ⟨9, _⟩ => ⟨S_, .f32⟩
  | .hbm, ⟨10, _⟩ => ⟨S8000000x1, .f32⟩
  | .hbm, ⟨11, _⟩ => ⟨S8000000x1, .f32⟩
  | .hbm, ⟨12, _⟩ => ⟨S8000000x4, .f32⟩
  | .hbm, ⟨13, _⟩ => ⟨S8000000x4, .f32⟩
  | .hbm, ⟨14, _⟩ => ⟨S8000000x1, .f32⟩
  | .hbm, ⟨15, _⟩ => ⟨S8000000, .f32⟩
  | .hbm, ⟨16, _⟩ => ⟨S8000000x1, .f32⟩
  | .hbm, ⟨17, _⟩ => ⟨S8000000, .f32⟩
  | .hbm, ⟨18, _⟩ => ⟨S8000000x1, .f32⟩
  | .hbm, ⟨19, _⟩ => ⟨S8000000, .f32⟩
  | .hbm, ⟨20, _⟩ => ⟨S8000000x1, .f32⟩
  | .hbm, ⟨21, _⟩ => ⟨S8000000, .f32⟩
  | .hbm, ⟨22, _⟩ => ⟨S_, .f32⟩
  | .hbm, ⟨23, _⟩ => ⟨S8000000, .f32⟩
  | .hbm, ⟨24, _⟩ => ⟨S8000000, .f32⟩
  | .hbm, ⟨25, _⟩ => ⟨S8000000, .f32⟩
  | .hbm, ⟨26, _⟩ => ⟨S_, .f32⟩
  | .hbm, ⟨27, _⟩ => ⟨S8000000, .f32⟩
  | .hbm, ⟨28, _⟩ => ⟨S8000000, .f32⟩
  | .hbm, ⟨29, _⟩ => ⟨S_, .f32⟩
  | .hbm, ⟨30, _⟩ => ⟨S8000000, .f32⟩
  | .hbm, ⟨31, _⟩ => ⟨S8000000, .f32⟩
  | .hbm, ⟨32, _⟩ => ⟨S8000000, .f32⟩
  | .hbm, ⟨33, _⟩ => ⟨S8000000, .f32⟩
  | .hbm, ⟨34, _⟩ => ⟨S_, .f32⟩
  | .hbm, ⟨35, _⟩ => ⟨S8000000, .f32⟩
  | .hbm, ⟨36, _⟩ => ⟨S8000000, .f32⟩
  | .hbm, ⟨37, _⟩ => ⟨S8000000, .f32⟩
  | .hbm, ⟨38, _⟩ => ⟨S_, .f32⟩
  | .hbm, ⟨39, _⟩ => ⟨S8000000, .f32⟩
  | .hbm, ⟨40, _⟩ => ⟨S8000000, .f32⟩
  | .hbm, ⟨41, _⟩ => ⟨S8000000, .f32⟩
  | .hbm, ⟨42, _⟩ => ⟨S8000000, .f32⟩
  | .hbm, ⟨43, _⟩ => ⟨S_, .f32⟩
  | .hbm, ⟨44, _⟩ => ⟨S8000000, .f32⟩
  | .hbm, ⟨45, _⟩ => ⟨S8000000, .f32⟩
  | .hbm, ⟨46, _⟩ => ⟨S8000000, .f32⟩
  | .hbm, ⟨47, _⟩ => ⟨S_, .f32⟩
  | .hbm, ⟨48, _⟩ => ⟨S8000000, .f32⟩
  | .hbm, ⟨49, _⟩ => ⟨S8000000, .f32⟩
  | .hbm, ⟨50, _⟩ => ⟨S8000000, .f32⟩
  | .hbm, ⟨51, _⟩ => ⟨S8000000, .f32⟩
  | .hbm, ⟨52, _⟩ => ⟨S_, .f32⟩
  | .hbm, ⟨53, _⟩ => ⟨S8000000, .f32⟩
  | .hbm, ⟨54, _⟩ => ⟨S8000000, .f32⟩
  | .hbm, ⟨55, _⟩ => ⟨S8000000, .f32⟩
  | .hbm, ⟨56, _⟩ => ⟨S_, .f32⟩
  | .hbm, ⟨57, _⟩ => ⟨S8000000, .f32⟩
  | .hbm, ⟨58, _⟩ => ⟨S8000000, .f32⟩
  | .hbm, ⟨59, _⟩ => ⟨S8000000, .f32⟩
  | .hbm, ⟨60, _⟩ => ⟨S8000000, .f32⟩
  | .hbm, ⟨61, _⟩ => ⟨S_, .f32⟩
  | .hbm, ⟨62, _⟩ => ⟨S8000000, .f32⟩
  | .hbm, ⟨63, _⟩ => ⟨S8000000, .f32⟩
  | .hbm, ⟨64, _⟩ => ⟨S8000000, .f32⟩
  | .hbm, ⟨65, _⟩ => ⟨S_, .f32⟩
  | .hbm, ⟨66, _⟩ => ⟨S8000000, .f32⟩
  | .hbm, ⟨67, _⟩ => ⟨S8000000, .f32⟩
  | .hbm, ⟨68, _⟩ => ⟨S_, .f32⟩
  | .hbm, ⟨69, _⟩ => ⟨S8000000, .f32⟩
  | .hbm, ⟨70, _⟩ => ⟨S8000000, .f32⟩
  | .hbm, ⟨71, _⟩ => ⟨S8000000, .f32⟩
  | .hbm, ⟨72, _⟩ => ⟨S8000000, .f32⟩
  | .hbm, ⟨73, _⟩ => ⟨S_, .f32⟩
  | .hbm, ⟨74, _⟩ => ⟨S8000000, .f32⟩
  | .hbm, ⟨75, _⟩ => ⟨S8000000, .f32⟩
  | .hbm, ⟨76, _⟩ => ⟨S8000000, .f32⟩
  | .hbm, ⟨77, _⟩ => ⟨S_, .f32⟩
  | .hbm, ⟨78, _⟩ => ⟨S8000000, .f32⟩
  | .hbm, ⟨79, _⟩ => ⟨S8000000, .f32⟩
  | .hbm, ⟨80, _⟩ => ⟨S8000000, .f32⟩
  | .hbm, ⟨81, _⟩ => ⟨S8000000, .f32⟩
  | .hbm, ⟨82, _⟩ => ⟨S_, .f32⟩
  | .hbm, ⟨83, _⟩ => ⟨S8000000, .f32⟩
  | .hbm, ⟨84, _⟩ => ⟨S8000000, .f32⟩
  | .hbm, ⟨85, _⟩ => ⟨S8000000, .f32⟩
  | .hbm, ⟨86, _⟩ => ⟨S_, .f32⟩
  | .hbm, ⟨87, _⟩ => ⟨S8000000, .f32⟩
  | .hbm, ⟨88, _⟩ => ⟨S8000000, .f32⟩
  | .hbm, ⟨89, _⟩ => ⟨S8000000, .f32⟩
  | .hbm, ⟨90, _⟩ => ⟨S8000000, .f32⟩
  | .hbm, ⟨91, _⟩ => ⟨S_, .f32⟩
  | .hbm, ⟨92, _⟩ => ⟨S8000000, .f32⟩
  | .hbm, ⟨93, _⟩ => ⟨S8000000, .f32⟩
  | .hbm, ⟨94, _⟩ => ⟨S8000000, .f32⟩
  | .hbm, ⟨95, _⟩ => ⟨S_, .f32⟩
  | .hbm, ⟨96, _⟩ => ⟨S8000000, .f32⟩
  | .hbm, ⟨97, _⟩ => ⟨S8000000, .f32⟩
  | .hbm, ⟨98, _⟩ => ⟨S8000000, .f32⟩
  | .hbm, ⟨99, _⟩ => ⟨S8000000, .f32⟩
  | .hbm, ⟨100, _⟩ => ⟨S_, .f32⟩
  | .hbm, ⟨101, _⟩ => ⟨S8000000, .f32⟩
  | .hbm, ⟨102, _⟩ => ⟨S8000000, .f32⟩
  | .hbm, ⟨103, _⟩ => ⟨S8000000, .f32⟩
  | .hbm, ⟨104, _⟩ => ⟨S_, .f32⟩
  | .hbm, ⟨105, _⟩ => ⟨S8000000, .f32⟩
  | .hbm, ⟨106, _⟩ => ⟨S8000000, .f32⟩
  | .hbm, ⟨107, _⟩ => ⟨S_, .f32⟩
  | .hbm, ⟨108, _⟩ => ⟨S8000000, .f32⟩
  | .hbm, ⟨109, _⟩ => ⟨S8000000, .f32⟩
  | .hbm, ⟨110, _⟩ => ⟨S8000000, .f32⟩
  | .hbm, ⟨111, _⟩ => ⟨S8000000, .f32⟩
  | .hbm, ⟨112, _⟩ => ⟨S8000000x1, .f32⟩
  | .hbm, ⟨113, _⟩ => ⟨S8000000x1, .f32⟩
  | .hbm, ⟨114, _⟩ => ⟨S8000000x1, .f32⟩
  | .hbm, ⟨115, _⟩ => ⟨S8000000x1, .f32⟩
  | .hbm, ⟨116, _⟩ => ⟨S8000000x1, .f32⟩
  | .hbm, ⟨117, _⟩ => ⟨S8000000x1, .f32⟩
  | .hbm, ⟨118, _⟩ => ⟨S8000000x1, .f32⟩
  | .hbm, ⟨119, _⟩ => ⟨S8000000x1, .f32⟩
  | .hbm, ⟨120, _⟩ => ⟨S8000000x1, .f32⟩
  | .hbm, ⟨121, _⟩ => ⟨S8000000x9, .f32⟩
  | .hbm, ⟨122, _⟩ => ⟨S8000000x3x3, .f32⟩
  | .hbm, ⟨123, _⟩ => ⟨S8000000x1x3, .f32⟩
  | .hbm, ⟨124, _⟩ => ⟨S8000000x3x3, .f32⟩
  | .hbm, ⟨125, _⟩ => ⟨S8000000x3x3, .f32⟩
  | .hbm, ⟨126, _⟩ => ⟨S8000000x3x3, .f32⟩
  | _, _ => ⟨S8000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v1 : Ref sig .tc := ⟨.hbm, 7, rfl⟩
abbrev main_cst : Ref sig .tc := ⟨.hbm, 8, rfl⟩
abbrev main_call1_v0 : Ref sig .tc := ⟨.hbm, 9, rfl⟩
abbrev main_call1_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_1 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_3 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_4 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_5 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_8 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_9 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_10 : Ref sig .tc := ⟨.hbm, 65, rfl⟩
abbrev main_v46 : Ref sig .tc := ⟨.hbm, 66, rfl⟩
abbrev main_v47 : Ref sig .tc := ⟨.hbm, 67, rfl⟩
abbrev main_cst_11 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_12 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_13 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_14 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_cst_15 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_cst_16 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_cst_17 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_18 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_cst_19 : Ref sig .tc := ⟨.hbm, 104, rfl⟩
abbrev main_v76 : Ref sig .tc := ⟨.hbm, 105, rfl⟩
abbrev main_v77 : Ref sig .tc := ⟨.hbm, 106, rfl⟩
abbrev main_cst_20 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩

abbrev nD : Nat := 1
abbrev τ : Topo := Topo.v7x

variable {F : FTy → Type} [FloatOps F]

class Facts₀ : Prop where
  reducesTo_S8000000x4_S8000000_d1 : S8000000x4.ReducesTo [1] S8000000
  h_S_ : 0 < S_.numel
  bcast_S8000000_S8000000x1_0 : S8000000.BroadcastsInDim S8000000x1 (![0] : Fin 1 → Fin S8000000x1.rank)
  bcast_S_S8000000x1 : S_.BroadcastsInDim S8000000x1 (![] : Fin 0 → Fin S8000000x1.rank)
  bcast_S8000000x1_S8000000x4_0_1 : S8000000x1.BroadcastsInDim S8000000x4 (![0, 1] : Fin 2 → Fin S8000000x4.rank)
  slices_S8000000x4_S8000000x1_0_0 : S8000000x4.Slices ![0, 0] S8000000x1
  shapeCasts_S8000000x1_S8000000 : S8000000x1.ShapeCasts S8000000
  slices_S8000000x4_S8000000x1_0_1 : S8000000x4.Slices ![0, 1] S8000000x1
  slices_S8000000x4_S8000000x1_0_2 : S8000000x4.Slices ![0, 2] S8000000x1
  slices_S8000000x4_S8000000x1_0_3 : S8000000x4.Slices ![0, 3] S8000000x1
  bcast_S_S8000000 : S_.BroadcastsInDim S8000000 (![] : Fin 0 → Fin S8000000.rank)
  concatenates_S8000000x1_S8000000x1_S8000000x1_S8000000x1_S8000000x1_S8000000x1_S8000000x1_S8000000x1_S8000000x1_S8000000x9_d1 : Shape.Concatenates [S8000000x1, S8000000x1, S8000000x1, S8000000x1, S8000000x1, S8000000x1, S8000000x1, S8000000x1, S8000000x1] S8000000x9 1
  shapeCasts_S8000000x9_S8000000x3x3 : S8000000x9.ShapeCasts S8000000x3x3
  bcast_S8000000x3_S8000000x1x3_0_2 : S8000000x3.BroadcastsInDim S8000000x1x3 (![0, 2] : Fin 2 → Fin S8000000x1x3.rank)
  bcast_S8000000x1x3_S8000000x3x3_0_1_2 : S8000000x1x3.BroadcastsInDim S8000000x3x3 (![0, 1, 2] : Fin 3 → Fin S8000000x3x3.rank)
  dot_S8000000x3x3_S8000000x3x3_S8000000x3x3_2_2_1_1_0_0_wf : DotDims.WF S8000000x3x3 S8000000x3x3 S8000000x3x3 [2] [2] [1] [1] [0] [0]

variable [Facts₀]

def dot_S8000000x3x3_S8000000x3x3_S8000000x3x3_2_2_1_1_0_0 : DotDims S8000000x3x3 S8000000x3x3 S8000000x3x3 where
  lhsContracting := [2]
  rhsContracting := [2]
  lhsNonContracting := [1]
  rhsNonContracting := [1]
  lhsBatch := [0]
  rhsBatch := [0]
  wf := dot_S8000000x3x3_S8000000x3x3_S8000000x3x3_2_2_1_1_0_0_wf

class Facts : Prop extends Facts₀ where

variable [Facts]
-- ==== Proof.Spec.lean ====
/-
  The covariance of one Gaussian as a function on the extended reals, and the whole result array.

  A point carries a log-scale triple `s` and a raw quaternion `q = (w, x, y, z)`.  With `e j = exp (s j)`,
  `u = q / max (sqrt (∑ a, q a * q a)) ε` and `R` the rotation matrix of `u`, the covariance is
  `(R · diag e) · (R · diag e)ᵀ`, whose entry `(i, k)` is `∑ j, (R i j * e j) * (R k j * e j)`.
  The same entry written out as three products of `R i j * R k j` with `e j * e j` is `covK`; the two agree
  by commutativity and associativity of `+` and `*` alone, which hold on every extended real, so nothing
  here asks the inputs to be finite.
-/
import Idealize.ShloMosaic.PureOps.Ideal
import Idealize.ShloMosaic.Lib.ValueIdx

noncomputable section

namespace Cert.Cov

open Idealize.ShloMosaic Idealize.ShloMosaic.ValueIdx

/-- The clamped Euclidean length of a 4-vector: `max (sqrt (∑ a, q a * q a)) ε`, `ε` the f32 word of 1e-12. -/
def len (q : Fin 4 → EReal) : EReal :=
  max (Ideal.sqrt (∑ a : Fin 4, q a * q a)) (Ideal.ofBits .f32 0x2B8CBCCC#32)

/-- The vector divided by its clamped length. -/
def nq (q : Fin 4 → EReal) (a : Fin 4) : EReal := Ideal.div (q a) (len q)

/-- The rotation matrix of `u = (w, x, y, z)`, every doubled product grouped as `2 * (a * b)`. -/
def rot (u : Fin 4 → EReal) : Fin 3 → Fin 3 → EReal :=
  ![![Ideal.ofBits .f32 0x3F800000#32 - Ideal.ofBits .f32 0x40000000#32 * (u 2 * u 2) - Ideal.ofBits .f32 0x40000000#32 * (u 3 * u 3),
      Ideal.ofBits .f32 0x40000000#32 * (u 1 * u 2) - Ideal.ofBits .f32 0x40000000#32 * (u 0 * u 3),
      Ideal.ofBits .f32 0x40000000#32 * (u 1 * u 3) + Ideal.ofBits .f32 0x40000000#32 * (u 0 * u 2)],
    ![Ideal.ofBits .f32 0x40000000#32 * (u 1 * u 2) + Ideal.ofBits .f32 0x40000000#32 * (u 0 * u 3),
      Ideal.ofBits .f32 0x3F800000#32 - Ideal.ofBits .f32 0x40000000#32 * (u 1 * u 1) - Ideal.ofBits .f32 0x40000000#32 * (u 3 * u 3),
      Ideal.ofBits .f32 0x40000000#32 * (u 2 * u 3) - Ideal.ofBits .f32 0x40000000#32 * (u 0 * u 1)],
    ![Ideal.ofBits .f32 0x40000000#32 * (u 1 * u 3) - Ideal.ofBits .f32 0x40000000#32 * (u 0 * u 2),
      Ideal.ofBits .f32 0x40000000#32 * (u 2 * u 3) + Ideal.ofBits .f32 0x40000000#32 * (u 0 * u 1),
      Ideal.ofBits .f32 0x3F800000#32 - Ideal.ofBits .f32 0x40000000#32 * (u 1 * u 1) - Ideal.ofBits .f32 0x40000000#32 * (u 2 * u 2)]]

/-- Entry `(i, k)` of `(R · diag e) · (R · diag e)ᵀ`. -/
def outer (R : Fin 3 → Fin 3 → EReal) (e : Fin 3 → EReal) (i k : Fin 3) : EReal :=
  ∑ j : Fin 3, (R i j * e j) * (R k j * e j)

/-- The same entry with the scales squared first: `(R i j * R k j) * (e j * e j)`, summed left to right. -/
def outerSq (R : Fin 3 → Fin 3 → EReal) (e : Fin 3 → EReal) (i k : Fin 3) : EReal :=
  (R i 0 * R k 0) * (e 0 * e 0) + (R i 1 * R k 1) * (e 1 * e 1) + (R i 2 * R k 2) * (e 2 * e 2)

theorem outerSq_eq_outer (R : Fin 3 → Fin 3 → EReal) (e : Fin 3 → EReal) (i k : Fin 3) :
    outerSq R e i k = outer R e i k := by
  unfold outerSq outer
  rw [Fin.sum_univ_three]
  have h : ∀ a b c : EReal, (a * b) * (c * c) = (a * c) * (b * c) := fun a b c => by
    rw [mul_mul_mul_comm]
  rw [h, h, h]

theorem outerSq_symm (R : Fin 3 → Fin 3 → EReal) (e : Fin 3 → EReal) (i k : Fin 3) :
    outerSq R e i k = outerSq R e k i := by
  unfold outerSq
  rw [mul_comm (R i 0), mul_comm (R i 1), mul_comm (R i 2)]

/-- The covariance entry `(i, k)` of the point with log-scales `s` and raw quaternion `q`. -/
def cov (s : Fin 3 → EReal) (q : Fin 4 → EReal) (i k : Fin 3) : EReal :=
  outer (rot (nq q)) (fun j => Ideal.exp (s j)) i k

/-- The result array: point `n`'s covariance at `(n, i, k)`, from the `[N, 3]` log-scales and `[N, 4]` quaternions. -/
def G (s : (⟨2, ![8000000, 3]⟩ : Shape).Idx → EReal) (q : (⟨2, ![8000000, 4]⟩ : Shape).Idx → EReal) :
    (⟨3, ![8000000, 3, 3]⟩ : Shape).Idx → EReal :=
  fun I => cov (fun j => s (ix2 (I 0) j)) (fun a => q (ix2 (I 0) a)) (I 1) (I 2)

theorem G_apply (s : (⟨2, ![8000000, 3]⟩ : Shape).Idx → EReal) (q : (⟨2, ![8000000, 4]⟩ : Shape).Idx → EReal)
    (n : Fin 8000000) (i k : Fin 3) :
    G s q (ix3 n i k) = cov (fun j => s (ix2 n j)) (fun a => q (ix2 n a)) i k := rfl

end Cert.Cov

end
-- ==== Proof.KernelBlock.lean ====
/-
  The kernel body's block, read at one element.

  The body takes a [3, 32000] block of log-scales (row j = scale j) and a [4, 32000] block of raw quaternions
  (rows w, x, y, z), one lane per point, and leaves a [9, 32000] block whose row r at lane l is entry
  (r / 3, r % 3) of the covariance (R · diag e) (R · diag e)ᵀ of the point at lane l, with e = exp s and R the
  rotation matrix of the quaternion divided by its clamped length.  Every arithmetic operation of the body is
  pointwise along the lanes except the sum of the four squared quaternion coordinates, which runs down a lane's
  column; so each stored row, read at lane l, is a closed expression in the seven numbers of that lane, and that
  expression is one of the six products  ∑ j, (R i j * R k j) * (e j * e j)  (rows 3, 6, 7 are the transposed
  pairs of rows 1, 2, 5), which is the covariance entry by commutativity and associativity of the product alone.
-/
import proofs.«104599_j21534966022500_1_alg».proof.Proof.Gen.KernelIdeal.Frame
import proofs.«104599_j21534966022500_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelBlock

open Idealize.ShloMosaic Idealize.ShloMosaic.ValueIdx Cert.KernelIdeal Cert.KernelIdeal.Gen

/-! ## Pointwise operations not yet read at an index -/

/-- A square root at an index is the square root of the element. -/
theorem sqrt_apply {s : Shape} {φ : FTy} (v : FVec Ideal s φ) (i : s.Idx) : sqrt v i = Ideal.sqrt (v i) := rfl
/-- An exponential at an index is the exponential of the element. -/
theorem exp_apply {s : Shape} {φ : FTy} (v : FVec Ideal s φ) (i : s.Idx) : exp v i = Ideal.exp (v i) := rfl

/-! ## The two input blocks' derived blocks at an element -/

/-- The exponentiated scales: row j at lane l is exp of the log-scale there. -/
theorem pay1_apply (x0 : Vec Ideal S3x32000 .f32) (j : Fin 3) (l : Fin 32000) :
    k0_pay1 (F := Ideal) x0 (ix2 j l) = Ideal.exp (x0 (ix2 j l)) := by
  unfold k0_pay1
  rw [shapeCast_self]
  rfl

/-- The column sum of the squared quaternion block at lane l is the sum of the four squares of that lane. -/
theorem sumsq_apply (v : FVec Ideal S4x32000 .f32) (h : S4x32000.Reduces [0] S32000) (hφ) (hacc) (l : Fin 32000) :
    multiReduction (F := Ideal) .add [0] S32000 v 0x00000000#32 h hφ hacc (ix1 l) = ∑ k : Fin 4, v (ix2 k l) := by
  refine (Ideal.multiReduction_add_single v _ h hφ hacc (ix1 l)).trans ?_
  refine Finset.sum_congr rfl fun k _ => congrArg v ?_
  funext a
  match a with
  | ⟨0, _⟩ => rfl
  | ⟨1, _⟩ => rfl

/-- The normalised quaternion block: row a at lane l is coordinate a of the lane's quaternion divided by its
    clamped length. -/
theorem pay2_apply (x1 : Vec Ideal S4x32000 .f32) (a : Fin 4) (l : Fin 32000) :
    k0_pay2 (F := Ideal) x1 (ix2 a l) = Cert.Cov.nq (fun a => x1 (ix2 a l)) a := by
  unfold k0_pay2
  rw [shapeCast_self]
  dsimp only
  refine (divf_apply _ _ _).trans ?_
  unfold Cert.Cov.nq Cert.Cov.len
  refine congrArg (Ideal.div _) ?_
  refine (broadcastTo_1b_ab_apply _ _ a l).trans ?_
  refine (maximumf_apply _ _ _).trans ?_
  refine congrArg₂ max ?_ rfl
  refine (sqrt_apply _ _).trans ?_
  refine congrArg Ideal.sqrt ?_
  refine (shapeCast_a_1a_apply _ _ 0 l).trans ?_
  exact sumsq_apply _ _ _ _ l

/-! ## The lane's numbers -/

/-- The normalised quaternion of the point at lane l. -/
abbrev uq (x1 : Vec Ideal S4x32000 .f32) (l : Fin 32000) : Fin 4 → EReal := Cert.Cov.nq fun a => x1 (ix2 a l)
/-- The scales of the point at lane l. -/
abbrev es (x0 : Vec Ideal S3x32000 .f32) (l : Fin 32000) : Fin 3 → EReal := fun j => Ideal.exp (x0 (ix2 j l))

/-! ## The rows w, x, y, z of the normalised quaternion block -/

theorem pay3_apply (x1 : Vec Ideal S4x32000 .f32) (u : Fin 1) (l : Fin 32000) :
    k0_pay3 (F := Ideal) x1 (ix2 u l) = uq x1 l 0 := by
  unfold k0_pay3
  exact (slice2_axis0_apply 0 _ _ u l 0 (by have := u.isLt; show 0 = 0 + u.val; omega)).trans (pay2_apply x1 0 l)

theorem pay4_apply (x1 : Vec Ideal S4x32000 .f32) (u : Fin 1) (l : Fin 32000) :
    k0_pay4 (F := Ideal) x1 (ix2 u l) = uq x1 l 1 := by
  unfold k0_pay4
  exact (slice2_axis0_apply 1 _ _ u l 1 (by have := u.isLt; show 1 = 1 + u.val; omega)).trans (pay2_apply x1 1 l)

theorem pay5_apply (x1 : Vec Ideal S4x32000 .f32) (u : Fin 1) (l : Fin 32000) :
    k0_pay5 (F := Ideal) x1 (ix2 u l) = uq x1 l 2 := by
  unfold k0_pay5
  exact (slice2_axis0_apply 2 _ _ u l 2 (by have := u.isLt; show 2 = 2 + u.val; omega)).trans (pay2_apply x1 2 l)

theorem pay6_apply (x1 : Vec Ideal S4x32000 .f32) (u : Fin 1) (l : Fin 32000) :
    k0_pay6 (F := Ideal) x1 (ix2 u l) = uq x1 l 3 := by
  unfold k0_pay6
  exact (slice2_axis0_apply 3 _ _ u l 3 (by have := u.isLt; show 3 = 3 + u.val; omega)).trans (pay2_apply x1 3 l)

/-! ## The squared scales -/

theorem pay7_apply (x0 : Vec Ideal S3x32000 .f32) (u : Fin 1) (l : Fin 32000) :
    k0_pay7 (F := Ideal) x0 (ix2 u l) = es x0 l 0 * es x0 l 0 := by
  have h : extractStridedSlice S1x32000 ![0, 0] (k0_pay1 (F := Ideal) x0) slices_S3x32000_o0_0_S1x32000 (ix2 u l) = es x0 l 0 :=
    (slice2_axis0_apply 0 _ _ u l 0 (by have := u.isLt; show 0 = 0 + u.val; omega)).trans (pay1_apply x0 0 l)
  unfold k0_pay7
  exact (mulf_apply _ _ _).trans (congrArg₂ (· * ·) h h)

theorem pay8_apply (x0 : Vec Ideal S3x32000 .f32) (u : Fin 1) (l : Fin 32000) :
    k0_pay8 (F := Ideal) x0 (ix2 u l) = es x0 l 1 * es x0 l 1 := by
  have h : extractStridedSlice S1x32000 ![1, 0] (k0_pay1 (F := Ideal) x0) slices_S3x32000_o1_0_S1x32000 (ix2 u l) = es x0 l 1 :=
    (slice2_axis0_apply 1 _ _ u l 1 (by have := u.isLt; show 1 = 1 + u.val; omega)).trans (pay1_apply x0 1 l)
  unfold k0_pay8
  exact (mulf_apply _ _ _).trans (congrArg₂ (· * ·) h h)

theorem pay9_apply (x0 : Vec Ideal S3x32000 .f32) (u : Fin 1) (l : Fin 32000) :
    k0_pay9 (F := Ideal) x0 (ix2 u l) = es x0 l 2 * es x0 l 2 := by
  have h : extractStridedSlice S1x32000 ![2, 0] (k0_pay1 (F := Ideal) x0) slices_S3x32000_o2_0_S1x32000 (ix2 u l) = es x0 l 2 :=
    (slice2_axis0_apply 2 _ _ u l 2 (by have := u.isLt; show 2 = 2 + u.val; omega)).trans (pay1_apply x0 2 l)
  unfold k0_pay9
  exact (mulf_apply _ _ _).trans (congrArg₂ (· * ·) h h)

/-! ## The nine pair products of the normalised quaternion's coordinates -/

theorem pay10_apply (x1 : Vec Ideal S4x32000 .f32) (u : Fin 1) (l : Fin 32000) :
    k0_pay10 (F := Ideal) x1 (ix2 u l) = uq x1 l 1 * uq x1 l 1 := by
  unfold k0_pay10
  exact (mulf_apply _ _ _).trans (congrArg₂ (· * ·) (pay4_apply x1 u l) (pay4_apply x1 u l))

theorem pay11_apply (x1 : Vec Ideal S4x32000 .f32) (u : Fin 1) (l : Fin 32000) :
    k0_pay11 (F := Ideal) x1 (ix2 u l) = uq x1 l 2 * uq x1 l 2 := by
  unfold k0_pay11
  exact (mulf_apply _ _ _).trans (congrArg₂ (· * ·) (pay5_apply x1 u l) (pay5_apply x1 u l))

theorem pay12_apply (x1 : Vec Ideal S4x32000 .f32) (u : Fin 1) (l : Fin 32000) :
    k0_pay12 (F := Ideal) x1 (ix2 u l) = uq x1 l 3 * uq x1 l 3 := by
  unfold k0_pay12
  exact (mulf_apply _ _ _).trans (congrArg₂ (· * ·) (pay6_apply x1 u l) (pay6_apply x1 u l))

theorem pay13_apply (x1 : Vec Ideal S4x32000 .f32) (u : Fin 1) (l : Fin 32000) :
    k0_pay13 (F := Ideal) x1 (ix2 u l) = uq x1 l 1 * uq x1 l 2 := by
  unfold k0_pay13
  exact (mulf_apply _ _ _).trans (congrArg₂ (· * ·) (pay4_apply x1 u l) (pay5_apply x1 u l))

theorem pay14_apply (x1 : Vec Ideal S4x32000 .f32) (u : Fin 1) (l : Fin 32000) :
    k0_pay14 (F := Ideal) x1 (ix2 u l) = uq x1 l 1 * uq x1 l 3 := by
  unfold k0_pay14
  exact (mulf_apply _ _ _).trans (congrArg₂ (· * ·) (pay4_apply x1 u l) (pay6_apply x1 u l))

theorem pay15_apply (x1 : Vec Ideal S4x32000 .f32) (u : Fin 1) (l : Fin 32000) :
    k0_pay15 (F := Ideal) x1 (ix2 u l) = uq x1 l 2 * uq x1 l 3 := by
  unfold k0_pay15
  exact (mulf_apply _ _ _).trans (congrArg₂ (· * ·) (pay5_apply x1 u l) (pay6_apply x1 u l))

theorem pay16_apply (x1 : Vec Ideal S4x32000 .f32) (u : Fin 1) (l : Fin 32000) :
    k0_pay16 (F := Ideal) x1 (ix2 u l) = uq x1 l 0 * uq x1 l 1 := by
  unfold k0_pay16
  exact (mulf_apply _ _ _).trans (congrArg₂ (· * ·) (pay3_apply x1 u l) (pay4_apply x1 u l))

theorem pay17_apply (x1 : Vec Ideal S4x32000 .f32) (u : Fin 1) (l : Fin 32000) :
    k0_pay17 (F := Ideal) x1 (ix2 u l) = uq x1 l 0 * uq x1 l 2 := by
  unfold k0_pay17
  exact (mulf_apply _ _ _).trans (congrArg₂ (· * ·) (pay3_apply x1 u l) (pay5_apply x1 u l))

theorem pay18_apply (x1 : Vec Ideal S4x32000 .f32) (u : Fin 1) (l : Fin 32000) :
    k0_pay18 (F := Ideal) x1 (ix2 u l) = uq x1 l 0 * uq x1 l 3 := by
  unfold k0_pay18
  exact (mulf_apply _ _ _).trans (congrArg₂ (· * ·) (pay3_apply x1 u l) (pay6_apply x1 u l))

/-! ## The three shapes of a rotation entry, over any two rows -/

/-- `1 - 2 * a - 2 * b` at an element. -/
theorem one_sub_two_apply (a b : FVec Ideal S1x32000 .f32) (i : S1x32000.Idx) (A B : EReal) (ha : a i = A) (hb : b i = B) :
    subf (subf (broadcast S1x32000 (Scalar.ofBits (F := Ideal) .f32 0x3F800000#32))
        (mulf (broadcast S1x32000 (Scalar.ofBits (F := Ideal) .f32 0x40000000#32)) a))
      (mulf (broadcast S1x32000 (Scalar.ofBits (F := Ideal) .f32 0x40000000#32)) b) i
      = Ideal.ofBits .f32 0x3F800000#32 - Ideal.ofBits .f32 0x40000000#32 * A - Ideal.ofBits .f32 0x40000000#32 * B := by
  subst ha hb; rfl

/-- `2 * a - 2 * b` at an element. -/
theorem two_sub_two_apply (a b : FVec Ideal S1x32000 .f32) (i : S1x32000.Idx) (A B : EReal) (ha : a i = A) (hb : b i = B) :
    subf (mulf (broadcast S1x32000 (Scalar.ofBits (F := Ideal) .f32 0x40000000#32)) a)
      (mulf (broadcast S1x32000 (Scalar.ofBits (F := Ideal) .f32 0x40000000#32)) b) i
      = Ideal.ofBits .f32 0x40000000#32 * A - Ideal.ofBits .f32 0x40000000#32 * B := by
  subst ha hb; rfl

/-- `2 * a + 2 * b` at an element. -/
theorem two_add_two_apply (a b : FVec Ideal S1x32000 .f32) (i : S1x32000.Idx) (A B : EReal) (ha : a i = A) (hb : b i = B) :
    addf (mulf (broadcast S1x32000 (Scalar.ofBits (F := Ideal) .f32 0x40000000#32)) a)
      (mulf (broadcast S1x32000 (Scalar.ofBits (F := Ideal) .f32 0x40000000#32)) b) i
      = Ideal.ofBits .f32 0x40000000#32 * A + Ideal.ofBits .f32 0x40000000#32 * B := by
  subst ha hb; rfl

/-! ## The nine entries of the rotation matrix, row by row -/

theorem R00_apply (x1 : Vec Ideal S4x32000 .f32) (u : Fin 1) (l : Fin 32000) :
    k0_pay19 (F := Ideal) x1 (ix2 u l) = Cert.Cov.rot (uq x1 l) 0 0 := by
  unfold k0_pay19
  exact one_sub_two_apply _ _ _ _ _ (pay11_apply x1 u l) (pay12_apply x1 u l)

theorem R01_apply (x1 : Vec Ideal S4x32000 .f32) (u : Fin 1) (l : Fin 32000) :
    k0_pay20 (F := Ideal) x1 (ix2 u l) = Cert.Cov.rot (uq x1 l) 0 1 := by
  unfold k0_pay20
  exact two_sub_two_apply _ _ _ _ _ (pay13_apply x1 u l) (pay18_apply x1 u l)

theorem R02_apply (x1 : Vec Ideal S4x32000 .f32) (u : Fin 1) (l : Fin 32000) :
    k0_pay21 (F := Ideal) (k0_pay14 x1) (k0_pay17 x1) (Scalar.ofBits .f32 0x40000000#32) (ix2 u l)
      = Cert.Cov.rot (uq x1 l) 0 2 := by
  unfold k0_pay21
  exact two_add_two_apply _ _ _ _ _ (pay14_apply x1 u l) (pay17_apply x1 u l)

theorem R10_apply (x1 : Vec Ideal S4x32000 .f32) (u : Fin 1) (l : Fin 32000) :
    k0_pay22 (F := Ideal) (k0_pay13 x1) (k0_pay18 x1) (ix2 u l) = Cert.Cov.rot (uq x1 l) 1 0 := by
  unfold k0_pay22
  exact two_add_two_apply _ _ _ _ _ (pay13_apply x1 u l) (pay18_apply x1 u l)

theorem R11_apply (x1 : Vec Ideal S4x32000 .f32) (u : Fin 1) (l : Fin 32000) :
    k0_pay23 (F := Ideal) (k0_pay10 x1) (k0_pay12 x1) (ix2 u l) = Cert.Cov.rot (uq x1 l) 1 1 := by
  unfold k0_pay23
  exact one_sub_two_apply _ _ _ _ _ (pay10_apply x1 u l) (pay12_apply x1 u l)

theorem R12_apply (x1 : Vec Ideal S4x32000 .f32) (u : Fin 1) (l : Fin 32000) :
    k0_pay24 (F := Ideal) (k0_pay15 x1) (k0_pay16 x1) (ix2 u l) = Cert.Cov.rot (uq x1 l) 1 2 := by
  unfold k0_pay24
  exact two_sub_two_apply _ _ _ _ _ (pay15_apply x1 u l) (pay16_apply x1 u l)

theorem R20_apply (x1 : Vec Ideal S4x32000 .f32) (u : Fin 1) (l : Fin 32000) :
    k0_pay25 (F := Ideal) (k0_pay14 x1) (k0_pay17 x1) (ix2 u l) = Cert.Cov.rot (uq x1 l) 2 0 := by
  unfold k0_pay25
  exact two_sub_two_apply _ _ _ _ _ (pay14_apply x1 u l) (pay17_apply x1 u l)

theorem R21_apply (x1 : Vec Ideal S4x32000 .f32) (u : Fin 1) (l : Fin 32000) :
    k0_pay26 (F := Ideal) (k0_pay15 x1) (k0_pay16 x1) (ix2 u l) = Cert.Cov.rot (uq x1 l) 2 1 := by
  unfold k0_pay26
  exact two_add_two_apply _ _ _ _ _ (pay15_apply x1 u l) (pay16_apply x1 u l)

theorem R22_apply (x1 : Vec Ideal S4x32000 .f32) (u : Fin 1) (l : Fin 32000) :
    k0_pay27 (F := Ideal) (k0_pay10 x1) (k0_pay11 x1) (ix2 u l) = Cert.Cov.rot (uq x1 l) 2 2 := by
  unfold k0_pay27
  exact one_sub_two_apply _ _ _ _ _ (pay10_apply x1 u l) (pay11_apply x1 u l)

/-! ## A covariance row over any rows: three products of two entries and a squared scale, summed left to right -/

theorem tri_apply (p p' q q' r r' e0 e1 e2 : FVec Ideal S1x32000 .f32) (i : S1x32000.Idx)
    (P P' Q Q' R R' E0 E1 E2 : EReal) (hp : p i = P) (hp' : p' i = P') (hq : q i = Q) (hq' : q' i = Q')
    (hr : r i = R) (hr' : r' i = R') (h0 : e0 i = E0) (h1 : e1 i = E1) (h2 : e2 i = E2) :
    addf (addf (mulf (mulf p p') e0) (mulf (mulf q q') e1)) (mulf (mulf r r') e2) i
      = (P * P') * E0 + (Q * Q') * E1 + (R * R') * E2 := by
  subst hp hp' hq hq' hr hr' h0 h1 h2; rfl

/-! ## The six covariance rows at an element -/

theorem cov00_apply (x0 : Vec Ideal S3x32000 .f32) (x1 : Vec Ideal S4x32000 .f32) (u : Fin 1) (l : Fin 32000) :
    k0_pay30 (F := Ideal) (k0_pay9 x0) (k0_pay28 (k0_pay7 x0) (k0_pay8 x0) (k0_pay19 x1) (k0_pay20 x1))
        (k0_pay29 (k0_pay14 x1) (k0_pay17 x1) (Scalar.ofBits .f32 0x40000000#32)) (ix2 u l)
      = Cert.Cov.outerSq (Cert.Cov.rot (uq x1 l)) (es x0 l) 0 0 := by
  unfold k0_pay30 k0_pay28 k0_pay29
  exact tri_apply _ _ _ _ _ _ _ _ _ _ _ _ _ _ _ _ _ _ _ (R00_apply x1 u l) (R00_apply x1 u l) (R01_apply x1 u l) (R01_apply x1 u l)
    (R02_apply x1 u l) (R02_apply x1 u l) (pay7_apply x0 u l) (pay8_apply x0 u l) (pay9_apply x0 u l)

theorem cov01_apply (x0 : Vec Ideal S3x32000 .f32) (x1 : Vec Ideal S4x32000 .f32) (u : Fin 1) (l : Fin 32000) :
    k0_pay31 (F := Ideal) (k0_pay7 x0) (k0_pay8 x0) (k0_pay9 x0) (k0_pay19 x1) (k0_pay20 x1)
        (k0_pay21 (k0_pay14 x1) (k0_pay17 x1) (Scalar.ofBits .f32 0x40000000#32))
        (k0_pay22 (k0_pay13 x1) (k0_pay18 x1)) (k0_pay23 (k0_pay10 x1) (k0_pay12 x1)) (k0_pay24 (k0_pay15 x1) (k0_pay16 x1)) (ix2 u l)
      = Cert.Cov.outerSq (Cert.Cov.rot (uq x1 l)) (es x0 l) 0 1 := by
  unfold k0_pay31
  exact tri_apply _ _ _ _ _ _ _ _ _ _ _ _ _ _ _ _ _ _ _ (R00_apply x1 u l) (R10_apply x1 u l) (R01_apply x1 u l) (R11_apply x1 u l)
    (R02_apply x1 u l) (R12_apply x1 u l) (pay7_apply x0 u l) (pay8_apply x0 u l) (pay9_apply x0 u l)

theorem cov02_apply (x0 : Vec Ideal S3x32000 .f32) (x1 : Vec Ideal S4x32000 .f32) (u : Fin 1) (l : Fin 32000) :
    k0_pay32 (F := Ideal) (k0_pay7 x0) (k0_pay8 x0) (k0_pay9 x0) (k0_pay19 x1) (k0_pay20 x1)
        (k0_pay21 (k0_pay14 x1) (k0_pay17 x1) (Scalar.ofBits .f32 0x40000000#32))
        (k0_pay25 (k0_pay14 x1) (k0_pay17 x1)) (k0_pay26 (k0_pay15 x1) (k0_pay16 x1)) (k0_pay27 (k0_pay10 x1) (k0_pay11 x1)) (ix2 u l)
      = Cert.Cov.outerSq (Cert.Cov.rot (uq x1 l)) (es x0 l) 0 2 := by
  unfold k0_pay32
  exact tri_apply _ _ _ _ _ _ _ _ _ _ _ _ _ _ _ _ _ _ _ (R00_apply x1 u l) (R20_apply x1 u l) (R01_apply x1 u l) (R21_apply x1 u l)
    (R02_apply x1 u l) (R22_apply x1 u l) (pay7_apply x0 u l) (pay8_apply x0 u l) (pay9_apply x0 u l)

theorem cov11_apply (x0 : Vec Ideal S3x32000 .f32) (x1 : Vec Ideal S4x32000 .f32) (u : Fin 1) (l : Fin 32000) :
    k0_pay33 (F := Ideal) (k0_pay7 x0) (k0_pay8 x0) (k0_pay9 x0)
        (k0_pay22 (k0_pay13 x1) (k0_pay18 x1)) (k0_pay23 (k0_pay10 x1) (k0_pay12 x1)) (k0_pay24 (k0_pay15 x1) (k0_pay16 x1)) (ix2 u l)
      = Cert.Cov.outerSq (Cert.Cov.rot (uq x1 l)) (es x0 l) 1 1 := by
  unfold k0_pay33
  exact tri_apply _ _ _ _ _ _ _ _ _ _ _ _ _ _ _ _ _ _ _ (R10_apply x1 u l) (R10_apply x1 u l) (R11_apply x1 u l) (R11_apply x1 u l)
    (R12_apply x1 u l) (R12_apply x1 u l) (pay7_apply x0 u l) (pay8_apply x0 u l) (pay9_apply x0 u l)

theorem cov12_apply (x0 : Vec Ideal S3x32000 .f32) (x1 : Vec Ideal S4x32000 .f32) (u : Fin 1) (l : Fin 32000) :
    k0_pay34 (F := Ideal) (k0_pay7 x0) (k0_pay8 x0) (k0_pay9 x0)
        (k0_pay22 (k0_pay13 x1) (k0_pay18 x1)) (k0_pay23 (k0_pay10 x1) (k0_pay12 x1)) (k0_pay24 (k0_pay15 x1) (k0_pay16 x1))
        (k0_pay25 (k0_pay14 x1) (k0_pay17 x1)) (k0_pay26 (k0_pay15 x1) (k0_pay16 x1)) (k0_pay27 (k0_pay10 x1) (k0_pay11 x1)) (ix2 u l)
      = Cert.Cov.outerSq (Cert.Cov.rot (uq x1 l)) (es x0 l) 1 2 := by
  unfold k0_pay34
  exact tri_apply _ _ _ _ _ _ _ _ _ _ _ _ _ _ _ _ _ _ _ (R10_apply x1 u l) (R20_apply x1 u l) (R11_apply x1 u l) (R21_apply x1 u l)
    (R12_apply x1 u l) (R22_apply x1 u l) (pay7_apply x0 u l) (pay8_apply x0 u l) (pay9_apply x0 u l)

theorem cov22_apply (x0 : Vec Ideal S3x32000 .f32) (x1 : Vec Ideal S4x32000 .f32) (u : Fin 1) (l : Fin 32000) :
    k0_pay35 (F := Ideal) (k0_pay7 x0) (k0_pay8 x0) (k0_pay9 x0)
        (k0_pay25 (k0_pay14 x1) (k0_pay17 x1)) (k0_pay26 (k0_pay15 x1) (k0_pay16 x1)) (k0_pay27 (k0_pay10 x1) (k0_pay11 x1)) (ix2 u l)
      = Cert.Cov.outerSq (Cert.Cov.rot (uq x1 l)) (es x0 l) 2 2 := by
  unfold k0_pay35
  exact tri_apply _ _ _ _ _ _ _ _ _ _ _ _ _ _ _ _ _ _ _ (R20_apply x1 u l) (R20_apply x1 u l) (R21_apply x1 u l) (R21_apply x1 u l)
    (R22_apply x1 u l) (R22_apply x1 u l) (pay7_apply x0 u l) (pay8_apply x0 u l) (pay9_apply x0 u l)

/-! ## The block in closed form, and the nine stored rows against it -/

/-- The block in closed form: at row y 0 and lane y 1, entry (y 0 / 3, y 0 % 3) of the covariance of the lane's point. -/
def blockG (x0 : Vec Ideal S3x32000 .f32) (x1 : Vec Ideal S4x32000 .f32) : S9x32000.Idx → EReal := fun y =>
  Cert.Cov.cov (fun j => x0 (ix2 j (y 1 : Fin 32000))) (fun a => x1 (ix2 a (y 1 : Fin 32000)))
    ⟨(y 0).val / 3, by have := idx2_lt0 y; omega⟩ ⟨(y 0).val % 3, by have := idx2_lt0 y; omega⟩

/-- A row's covariance entry from the product form, for the pair (i, k). -/
theorem entry_eq (x0 : Vec Ideal S3x32000 .f32) (x1 : Vec Ideal S4x32000 .f32) (l : Fin 32000) (i k : Fin 3) :
    Cert.Cov.outerSq (Cert.Cov.rot (uq x1 l)) (es x0 l) i k
      = Cert.Cov.cov (fun j => x0 (ix2 j l)) (fun a => x1 (ix2 a l)) i k :=
  Cert.Cov.outerSq_eq_outer _ _ i k

/-- The same for the transposed pair. -/
theorem entry_eq_symm (x0 : Vec Ideal S3x32000 .f32) (x1 : Vec Ideal S4x32000 .f32) (l : Fin 32000) (i k : Fin 3) :
    Cert.Cov.outerSq (Cert.Cov.rot (uq x1 l)) (es x0 l) i k
      = Cert.Cov.cov (fun j => x0 (ix2 j l)) (fun a => x1 (ix2 a l)) k i :=
  (Cert.Cov.outerSq_symm _ _ i k).trans (Cert.Cov.outerSq_eq_outer _ _ k i)

/-- Row n of the [9, 32000] block, as a rectangle of one row: its local index (u, l) sits at (n, l). -/
theorem emb_row (n : Nat) (hn : n < 9) (inb : ∀ a, (![n, 0] : Fin 2 → Nat) a + S1x32000.size a ≤ S9x32000.size a)
    (u : Fin 1) (l : Fin 32000) :
    (Rect.unit (s := S9x32000) ![n, 0] S1x32000.size inb).emb (ix2 u l) = ix2 (⟨n, hn⟩ : Fin 9) l := by
  funext a
  match a with
  | ⟨0, _⟩ => exact Fin.ext (by have := u.isLt; show n + 1 * u.val = n; omega)
  | ⟨1, _⟩ => exact Fin.ext (by show 0 + 1 * l.val = l.val; omega)

/-- A one-row piece at row n whose payload at every lane is the covariance entry (i, k) of the lane's point, with
    i = n / 3 and k = n % 3, agrees with the closed form at the index under each of its local indices. -/
theorem piece_row (x0 : Vec Ideal S3x32000 .f32) (x1 : Vec Ideal S4x32000 .f32) (n : Nat) (hn : n < 9) (i k : Fin 3)
    (hi : i.val = n / 3) (hk : k.val = n % 3)
    (inb : ∀ a, (![n, 0] : Fin 2 → Nat) a + S1x32000.size a ≤ S9x32000.size a) (pay : FVec Ideal S1x32000 .f32)
    (h : ∀ (u : Fin 1) (l : Fin 32000),
      pay (ix2 u l) = Cert.Cov.cov (fun j => x0 (ix2 j l)) (fun a => x1 (ix2 a l)) i k) :
    ∀ x : (Rect.unit (s := S9x32000) ![n, 0] S1x32000.size inb).shape.Idx,
      pay x = blockG x0 x1 ((Rect.unit (s := S9x32000) ![n, 0] S1x32000.size inb).emb x) := by
  intro (x : (⟨2, ![1, 32000]⟩ : Shape).Idx)
  obtain ⟨u, l, rfl⟩ : ∃ (u : Fin 1) (l : Fin 32000), x = ix2 u l := ⟨x 0, x 1, eq_ix2 x⟩
  refine (h u l).trans ?_
  rw [emb_row n hn inb u l]
  have ei : i = ⟨n / 3, by omega⟩ := Fin.ext hi
  have ek : k = ⟨n % 3, Nat.mod_lt _ (by omega)⟩ := Fin.ext hk
  rw [ei, ek]
  rfl

/-- The zero offsets, however spelt. -/
theorem off_zero : (![0, 0] : Fin 2 → Nat) = fun _ => 0 := funext fun a => by
  match a with
  | ⟨0, _⟩ => rfl
  | ⟨1, _⟩ => rfl

/-! ## The block at an element -/

/-- What the body leaves in the [9, 32000] block, at row r and lane l: entry (r / 3, r % 3) of the covariance of the
    point whose log-scales and raw quaternion are the lane's columns of the two input blocks. -/
theorem out_apply (x0 : Vec Ideal S3x32000 .f32) (x1 : Vec Ideal S4x32000 .f32) (r : Fin 9) (l : Fin 32000) :
    out0_2 (F := Ideal) x0 x1 (ix2 r l)
      = Cert.Cov.cov (fun j => x0 (ix2 j l)) (fun a => x1 (ix2 a l)) ⟨r.val / 3, by omega⟩ ⟨r.val % 3, by omega⟩ := by
  have h0 : View.ld x0 r0_0 = x0 := View.ld_unit_zero (S := S3x32000) off_zero _ x0
  have h1 : View.ld x1 r0_1 = x1 := View.ld_unit_zero (S := S4x32000) off_zero _ x1
  unfold out0_2
  rw [h0, h1]
  refine (View.canon_apply_of_pieces (blockG x0 x1) _ ?_ (ix2 r l) (cover0_2 _ _ _ _ _ _ _ _ _ _)).trans rfl
  intro p hp
  rcases List.mem_cons.mp hp with rfl | hp
  · exact piece_row x0 x1 8 (by omega) 2 2 (by decide) (by decide) inb_S9x32000_S1x32000_8_0 _ fun u l' =>
      (cov22_apply x0 x1 u l').trans (entry_eq x0 x1 l' 2 2)
  rcases List.mem_cons.mp hp with rfl | hp
  · exact piece_row x0 x1 7 (by omega) 2 1 (by decide) (by decide) inb_S9x32000_S1x32000_7_0 _ fun u l' =>
      (cov12_apply x0 x1 u l').trans (entry_eq_symm x0 x1 l' 1 2)
  rcases List.mem_cons.mp hp with rfl | hp
  · exact piece_row x0 x1 6 (by omega) 2 0 (by decide) (by decide) inb_S9x32000_S1x32000_6_0 _ fun u l' =>
      (cov02_apply x0 x1 u l').trans (entry_eq_symm x0 x1 l' 0 2)
  rcases List.mem_cons.mp hp with rfl | hp
  · exact piece_row x0 x1 5 (by omega) 1 2 (by decide) (by decide) inb_S9x32000_S1x32000_5_0 _ fun u l' =>
      (cov12_apply x0 x1 u l').trans (entry_eq x0 x1 l' 1 2)
  rcases List.mem_cons.mp hp with rfl | hp
  · exact piece_row x0 x1 4 (by omega) 1 1 (by decide) (by decide) inb_S9x32000_S1x32000_4_0 _ fun u l' =>
      (cov11_apply x0 x1 u l').trans (entry_eq x0 x1 l' 1 1)
  rcases List.mem_cons.mp hp with rfl | hp
  · exact piece_row x0 x1 3 (by omega) 1 0 (by decide) (by decide) inb_S9x32000_S1x32000_3_0 _ fun u l' =>
      (cov01_apply x0 x1 u l').trans (entry_eq_symm x0 x1 l' 0 1)
  rcases List.mem_cons.mp hp with rfl | hp
  · exact piece_row x0 x1 2 (by omega) 0 2 (by decide) (by decide) inb_S9x32000_S1x32000_2_0 _ fun u l' =>
      (cov02_apply x0 x1 u l').trans (entry_eq x0 x1 l' 0 2)
  rcases List.mem_cons.mp hp with rfl | hp
  · exact piece_row x0 x1 1 (by omega) 0 1 (by decide) (by decide) inb_S9x32000_S1x32000_1_0 _ fun u l' =>
      (cov01_apply x0 x1 u l').trans (entry_eq x0 x1 l' 0 1)
  rcases List.mem_cons.mp hp with rfl | hp
  · exact piece_row x0 x1 0 (by omega) 0 0 (by decide) (by decide) inb_S9x32000_S1x32000_0_0 _ fun u l' =>
      (cov00_apply x0 x1 u l').trans (entry_eq x0 x1 l' 0 0)
  nomatch hp

end Cert.KernelBlock

end
-- ==== Proof.KernelArr.lean ====
/-
  The idealized kernel's run, read as one function of the argument arrays.

  The region works on the transposed arrays: the `[3, N]` log-scales and the `[4, N]` quaternions, cut along `N`
  into 250 blocks of 32000 lanes, and writes the `[9, N]` array whose entry `(r, n)` is the covariance entry
  `(r / 3, r % 3)` of point `n`.  Block `t` of an operand is lanes `32000 t … 32000 t + 31999` of its array, so
  what point `t` writes back is block `t` of that `[9, N]` array; the 250 blocks tile it.  The lines after the
  region transpose it to `[N, 9]` and reshape it to `[N, 3, 3]`, which puts entry `(3 i + k, n)` at `(n, i, k)`;
  the lines before it transpose the arguments, which puts `(n, j)` at `(j, n)`.  Composed, the result array is
  `Cert.Cov.G` of the two arguments.
-/
import proofs.«104599_j21534966022500_1_alg».proof.Proof.Gen.KernelIdeal.Frame
import proofs.«104599_j21534966022500_1_alg».proof.Proof.Spec
import Idealize.ShloMosaic.Lib.Pipeline.Value
import Idealize.ShloMosaic.Lib.ValueIdx
import Idealize.ShloMosaic.Lib.StableHlo.Run
import Idealize.ShloMosaic.Lib.Tactic

set_option maxRecDepth 16384

noncomputable section

namespace Cert.KernelArr

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- What the body leaves in its `[9, 32000]` buffer, as a hypothesis: row `r`, lane `l` is the covariance entry
    `(r / 3, r % 3)` of the point whose scales and quaternion are lane `l` of the two input blocks. -/
def BlockSpec : Prop :=
  ∀ (x0 : Vec Ideal S3x32000 .f32) (x1 : Vec Ideal S4x32000 .f32) (r : Fin 9) (l : Fin 32000),
    out0_2 (F := Ideal) x0 x1 (ix2 r l)
      = Cert.Cov.cov (fun j => x0 (ix2 j l)) (fun a => x1 (ix2 a l))
          ⟨r.val / 3, by have := r.isLt; omega⟩ ⟨r.val % 3, by have := r.isLt; omega⟩

/-- The `[9, N]` array the region leaves, from the transposed scales and quaternions. -/
def Gt (sT : S3x8000000.Idx → EReal) (qT : S4x8000000.Idx → EReal) : S9x8000000.Idx → EReal :=
  fun y => Cert.Cov.cov (fun j => sT (ix2 j ⟨(y 1).val, (y 1).isLt⟩)) (fun a => qT (ix2 a ⟨(y 1).val, (y 1).isLt⟩))
    ⟨(y 0).val / 3, by have : (y 0).val < 9 := (y 0).isLt; omega⟩ ⟨(y 0).val % 3, by have : (y 0).val < 9 := (y 0).isLt; omega⟩

/-- The printed index maps over the grid: every window's block index is `(0, t)`. -/
theorem idx_facts : ∀ t : Fin cfg0.N, win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val :=
  (by decide +kernel : ∀ t : Fin grid0.N, _)

/-- Lane `l` of block `t` of the scales is lane `32000 t + l` of the `[3, N]` array. -/
theorem iblk0_apply (c : Dev nD) (t : Fin cfg0.N) (j : Fin 3) (l : Fin 32000) (n : Fin 8000000)
    (hn : n.val = 32000 * t.val + l.val) :
    (iblk m c 0 t : Vec Ideal S3x32000 .f32) (ix2 j l) = (V m c main_v0 : S3x8000000.Idx → EReal) (ix2 j n) := by
  obtain ⟨e0, e1, -, -, -, -⟩ := idx_facts t
  unfold iblk
  rw [View.read_apply]
  show V m c main_v0 _ = V m c main_v0 _
  congr 1
  funext a
  apply Fin.ext
  match a with
  | ⟨0, _⟩ => show win0_0.index t 0 * 3 + 1 * j.val = j.val; rw [e0]; omega
  | ⟨1, _⟩ => show win0_0.index t 1 * 32000 + 1 * l.val = n.val; rw [e1, hn]; omega

/-- Lane `l` of block `t` of the quaternions is lane `32000 t + l` of the `[4, N]` array. -/
theorem iblk1_apply (c : Dev nD) (t : Fin cfg0.N) (a' : Fin 4) (l : Fin 32000) (n : Fin 8000000)
    (hn : n.val = 32000 * t.val + l.val) :
    (iblk m c 1 t : Vec Ideal S4x32000 .f32) (ix2 a' l) = (V m c main_v1 : S4x8000000.Idx → EReal) (ix2 a' n) := by
  obtain ⟨-, -, e0, e1, -, -⟩ := idx_facts t
  unfold iblk
  rw [View.read_apply]
  show V m c main_v1 _ = V m c main_v1 _
  congr 1
  funext a
  apply Fin.ext
  match a with
  | ⟨0, _⟩ => show win0_1.index t 0 * 4 + 1 * a'.val = a'.val; rw [e0]; omega
  | ⟨1, _⟩ => show win0_1.index t 1 * 32000 + 1 * l.val = n.val; rw [e1, hn]; omega

/-- The body's buffer at a general index of the `[9, 32000]` block. -/
theorem out_at (hblk : BlockSpec) (x0 : Vec Ideal S3x32000 .f32) (x1 : Vec Ideal S4x32000 .f32) (y : S9x32000.Idx) :
    out0_2 (F := Ideal) x0 x1 y
      = Cert.Cov.cov (fun j => x0 (ix2 j ⟨(y 1).val, (y 1).isLt⟩)) (fun a => x1 (ix2 a ⟨(y 1).val, (y 1).isLt⟩))
          ⟨(y 0).val / 3, by have : (y 0).val < 9 := (y 0).isLt; omega⟩ ⟨(y 0).val % 3, by have : (y 0).val < 9 := (y 0).isLt; omega⟩ := by
  obtain ⟨r, l, rfl⟩ : ∃ (r : Fin 9) (l : Fin 32000), y = ix2 r l := ⟨y 0, y 1, eq_ix2 y⟩
  exact hblk x0 x1 r l

/-- What point `t` writes back is block `t` of `Gt` of the transposed arrays as the region finds them. -/
theorem flushed_eq (hblk : BlockSpec) (c : Dev nD) (t : Fin cfg0.N) :
    (dats m 0 c).flushed 2 t = ((cfg0.win 2).blk t).view.read (Elt Ideal) (Gt (V m c main_v0) (V m c main_v1)) := by
  show (cfg0.win 2).cut (grid0.coords t) ((dats m 0 c).after 2 t) = _
  rw [after0_2]
  obtain ⟨-, -, -, -, e0, e1⟩ := idx_facts t
  funext y
  rw [View.read_apply]
  show out0_2 (F := Ideal) (iblk m c 0 t) (iblk m c 1 t) ((cfg0.win 2).xinj (grid0.coords t) y) = _
  rw [out_at hblk]
  have hy0 : (y 0).val < 9 := (y 0).isLt
  have hy1 : (y 1).val < 32000 := (y 1).isLt
  have ht : t.val < 250 := lt_of_lt_of_eq t.isLt (show cfg0.N = 250 from N_0)
  have hn : 32000 * t.val + (y 1).val < 8000000 := by omega
  have k0 : ((((cfg0.win 2).blk t).view.emb y) 0).val = (y 0).val := by
    show win0_2.index t 0 * 9 + 1 * (y 0).val = (y 0).val; rw [e0]; omega
  have k1 : ((((cfg0.win 2).blk t).view.emb y) 1).val = 32000 * t.val + (y 1).val := by
    show win0_2.index t 1 * 32000 + 1 * (y 1).val = _; rw [e1]; omega
  unfold Gt
  have hs : (fun j : Fin 3 => (iblk m c 0 t : Vec Ideal S3x32000 .f32) (ix2 j ⟨(y 1).val, hy1⟩))
      = fun j : Fin 3 => (V m c main_v0 : S3x8000000.Idx → EReal) (ix2 j ⟨32000 * t.val + (y 1).val, hn⟩) :=
    funext fun j => iblk0_apply m c t j ⟨(y 1).val, hy1⟩ ⟨32000 * t.val + (y 1).val, hn⟩ rfl
  have hq : (fun a : Fin 4 => (iblk m c 1 t : Vec Ideal S4x32000 .f32) (ix2 a ⟨(y 1).val, hy1⟩))
      = fun a : Fin 4 => (V m c main_v1 : S4x8000000.Idx → EReal) (ix2 a ⟨32000 * t.val + (y 1).val, hn⟩) :=
    funext fun a => iblk1_apply m c t a ⟨(y 1).val, hy1⟩ ⟨32000 * t.val + (y 1).val, hn⟩ rfl
  show Cert.Cov.cov (fun j : Fin 3 => (iblk m c 0 t : Vec Ideal S3x32000 .f32) (ix2 j ⟨(y 1).val, hy1⟩))
      (fun a : Fin 4 => (iblk m c 1 t : Vec Ideal S4x32000 .f32) (ix2 a ⟨(y 1).val, hy1⟩)) ⟨(y 0).val / 3, _⟩ ⟨(y 0).val % 3, _⟩ = _
  rw [hs, hq]
  congr 1
  · funext j; exact congrArg _ (congrArg (ix2 j) (Fin.ext k1.symm))
  · funext a; exact congrArg _ (congrArg (ix2 a) (Fin.ext k1.symm))
  · exact Fin.ext (by show (y 0).val / 3 = _ / 3; rw [k0])
  · exact Fin.ext (by show (y 0).val % 3 = _ % 3; rw [k0])

/-- An index of the `[9, N]` array is in point `t`'s block iff each coordinate is in the block's range on its axis. -/
theorem mem_blk (t : Fin cfg0.N) (i : S9x8000000.Idx) :
    i ∈ ((cfg0.win 2).blk t).view.set ↔ ∀ a : Fin 2, win0_2.index t a * S9x32000.size a ≤ (i a).val ∧ (i a).val < win0_2.index t a * S9x32000.size a + S9x32000.size a := by
  show i ∈ ((View.whole main_v2).slice (win0_2.rect t)).set ↔ _
  rw [View.set_slice_whole, Rect.mem_set_unit]
  exact Iff.rfl

/-- The 250 blocks tile the array: lane `n` lies in block `n / 32000`. -/
theorem cover (i : S9x8000000.Idx) : ∃ t : Fin cfg0.N, (cfg0.win 2).flush t = true ∧ i ∈ ((cfg0.win 2).blk t).view.set := by
  have h0 : (i 0).val < 9 := (i 0).isLt
  have h1 : (i 1).val < 8000000 := (i 1).isLt
  have hN : cfg0.N = 250 := N_0
  refine ⟨⟨(i 1).val / 32000, by rw [hN]; omega⟩, flush0_2 _, ?_⟩
  rw [mem_blk]
  obtain ⟨-, -, -, -, e0, e1⟩ := idx_facts ⟨(i 1).val / 32000, by rw [hN]; omega⟩
  intro a
  match a with
  | ⟨0, _⟩ => show win0_2.index _ 0 * 9 ≤ (i 0).val ∧ (i 0).val < win0_2.index _ 0 * 9 + 9; rw [e0]; omega
  | ⟨1, _⟩ => show win0_2.index _ 1 * 32000 ≤ (i 1).val ∧ (i 1).val < win0_2.index _ 1 * 32000 + 32000; rw [e1]; show (i 1).val / 32000 * 32000 ≤ (i 1).val ∧ (i 1).val < (i 1).val / 32000 * 32000 + 32000; omega

/-- So the `[9, N]` array ends holding `Gt` of the transposed arrays. -/
theorem final (hblk : BlockSpec) (c : Dev nD) : (dats m 0 c).arrAt 2 cfg0.N = Gt (V m c main_v0) (V m c main_v1) :=
  (dats m 0 c).arrAt_eq_of_cover 2 (Gt (V m c main_v0) (V m c main_v1)) (fun t _ => flushed_eq m hblk c t) cover

/-- The region finds the transposed scales in its first operand. -/
theorem V_v0 (c : Dev nD) : (V m c main_v0 : S3x8000000.Idx → EReal)
    = transpose S3x8000000 [1, 0] (m ((c : Thread nD τ).loc main_arg0)) transposes_S8000000x3_S3x8000000_1_0 := by
  show StableHlo.after hostOps0 (fun b => m (c, b)) (Proc.devRef .tc main_v0) = _
  after_results

/-- The region finds the transposed quaternions in its second operand. -/
theorem V_v1 (c : Dev nD) : (V m c main_v1 : S4x8000000.Idx → EReal)
    = transpose S4x8000000 [1, 0] (m ((c : Thread nD τ).loc main_arg1)) transposes_S8000000x4_S4x8000000_1_0 := by
  show StableHlo.after hostOps0 (fun b => m (c, b)) (Proc.devRef .tc main_v1) = _
  after_results

/-- Entry `(j, n)` of the transposed scales is entry `(n, j)` of the argument. -/
theorem V_v0_apply (c : Dev nD) (j : Fin 3) (n : Fin 8000000) :
    (V m c main_v0 : S3x8000000.Idx → EReal) (ix2 j n) = (m ((c : Thread nD τ).loc main_arg0) : S8000000x3.Idx → EReal) (ix2 n j) := by
  rw [V_v0]
  exact transpose_apply _ _ _ (ix2 j n) (ix2 n j) (fun b => match b with | ⟨0, _⟩ => rfl | ⟨1, _⟩ => rfl)

/-- Entry `(a, n)` of the transposed quaternions is entry `(n, a)` of the argument. -/
theorem V_v1_apply (c : Dev nD) (a : Fin 4) (n : Fin 8000000) :
    (V m c main_v1 : S4x8000000.Idx → EReal) (ix2 a n) = (m ((c : Thread nD τ).loc main_arg1) : S8000000x4.Idx → EReal) (ix2 n a) := by
  rw [V_v1]
  exact transpose_apply _ _ _ (ix2 a n) (ix2 n a) (fun b => match b with | ⟨0, _⟩ => rfl | ⟨1, _⟩ => rfl)

/-- The lines after the region: the result is the reshape of the transpose of the `[9, N]` array. -/
theorem tail_v4 (c : Dev nD) :
    Pipeline.afterTail₀ cfgs (dats m) 0 (V0 m) [hostOps1] c main_v4
      = shapeCast S8000000x3x3 (transpose S8000000x9 [1, 0] ((dats m 0 c).arrAt 2 cfg0.N) transposes_S9x8000000_S8000000x9_1_0) shapeCasts_S8000000x9_S8000000x3x3 := by
  unfold Pipeline.afterTail₀
  show StableHlo.after hostOps1 _ (Proc.devRef .tc main_v4) = _
  after_results
  have e := Pipeline.withArrays_arr spec0 launch0.win.arr_inj c (V0 m c) (fun w => (dats m 0 c).arrAt w (cfgs 0).N) 2
  funext i
  exact congrArg (fun X : S9x8000000.Idx → EReal =>
    shapeCast S8000000x3x3 (transpose S8000000x9 [1, 0] X transposes_S9x8000000_S8000000x9_1_0) shapeCasts_S8000000x9_S8000000x3x3 i) e

/-- The result array is `Cert.Cov.G` of the two arguments. -/
theorem result (hblk : BlockSpec) (c : Dev nD) :
    Pipeline.afterTail₀ cfgs (dats m) 0 (V0 m) [hostOps1] c main_v4
      = Cert.Cov.G (m ((c : Thread nD τ).loc main_arg0)) (m ((c : Thread nD τ).loc main_arg1)) := by
  rw [tail_v4, final m hblk]
  funext I
  obtain ⟨n, i, k, rfl⟩ : ∃ (n : Fin 8000000) (i k : Fin 3), I = ix3 n i k := ⟨I 0, I 1, I 2, eq_ix3 I⟩
  have hi : i.val < 3 := i.isLt
  have hk : k.val < 3 := k.isLt
  rw [Cert.Cov.G_apply]
  refine (shapeCast_apply _ shapeCasts_S8000000x9_S8000000x3x3 (ix3 n i k) (ix2 n ⟨3 * i.val + k.val, by omega⟩)
    (by rewrite [Shape.rowMajor_val_two, Shape.rowMajor_val_three]; show n.val * 9 + (3 * i.val + k.val) = (n.val * 3 + i.val) * 3 + k.val; omega)).trans ?_
  refine (transpose_apply _ _ transposes_S9x8000000_S8000000x9_1_0 (ix2 n ⟨3 * i.val + k.val, by omega⟩) (ix2 ⟨3 * i.val + k.val, by omega⟩ n)
    (fun b => match b with | ⟨0, _⟩ => rfl | ⟨1, _⟩ => rfl)).trans ?_
  unfold Gt
  show Cert.Cov.cov (fun j : Fin 3 => (V m c main_v0 : S3x8000000.Idx → EReal) (ix2 j ⟨n.val, _⟩))
      (fun a : Fin 4 => (V m c main_v1 : S4x8000000.Idx → EReal) (ix2 a ⟨n.val, _⟩)) ⟨(3 * i.val + k.val) / 3, _⟩ ⟨(3 * i.val + k.val) % 3, _⟩ = _
  congr 1
  · funext j; exact V_v0_apply m c j n
  · funext a; exact V_v1_apply m c a n
  · exact Fin.ext (by show (3 * i.val + k.val) / 3 = i.val; omega)
  · exact Fin.ext (by show (3 * i.val + k.val) % 3 = k.val; omega)

/-- The idealized kernel's run, read: the result array at `Cert.Cov.G` of the arguments, the arguments unchanged. -/
theorem run (hblk : BlockSpec) : θ_run defs (onTc (τ := τ) (main (F := Ideal))) ⟨m, fun _ => 0, ρ⟩ fun r => ∀ c : Dev nD,
      r.2.mem ((c.tc : Thread nD τ).loc main_v4) = Cert.Cov.G (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
      ⟨((h c).2 main_v4 (Pipeline.mem_restRefs_of main_v4 (by decide) (by decide))).trans (result m hblk c),
       ((h c).2 main_arg0 (Pipeline.mem_restRefs_of main_arg0 (by decide) (by decide))).trans (W_main_arg0 m (dats m) c),
       ((h c).2 main_arg1 (Pipeline.mem_restRefs_of main_arg1 (by decide) (by decide))).trans (W_main_arg1 m (dats m) c)⟩)
    (run_main m ρ)

end Cert.KernelArr

end
-- ==== Proof.RefRead.lean ====
/-
  The reference program read at one element: the entry (i, k) of point n's result is the covariance
  entry of the specification, computed from that point's three log-scales and four quaternion components.

  The program normalises the quaternion q by max ε (sqrt (0 + ∑ a, q a * q a)), writes the nine entries of the
  rotation matrix with every doubled product grouped as (2 * a) * b, lays them side by side as nine columns,
  reshapes the nine columns of a point to a 3 × 3 block, scales column j by exp (s j), and contracts the
  scaled block with itself over the column axis.  Against the specification only three algebraic facts are
  used: 0 + a = a, max a b = max b a and (a * b) * c = a * (b * c), all valid on every extended real.
-/
import proofs.«104599_j21534966022500_1_alg».proof.Proof.Gen.ReferenceIdeal.Read
import proofs.«104599_j21534966022500_1_alg».proof.Proof.Spec
import Idealize.ShloMosaic.Lib.ValueIdx
import Idealize.ShloMosaic.Lib.Pipeline.Value
import Idealize.ShloMosaic.PureOps.Ideal.Laws

noncomputable section

namespace Cert.RefRead

open Idealize.ShloMosaic Idealize.ShloMosaic.ValueIdx Cert.ReferenceIdeal Cert.ReferenceIdeal.Read Cert.Cov

/-- The normalised quaternion of point `n`: its four raw components divided by their clamped length. -/
def U (x1 : (⟨S8000000x4, .f32⟩ : BufTy).Contents (Elt Ideal)) (n : Fin 8000000) : Fin 4 → EReal :=
  nq (fun a => x1 (ix2 n a))

/-! ## The length of the quaternion -/

/-- The reduction over the four components of row `n` visits `(n, 0), …, (n, 3)`. -/
theorem idx_sum (n : Fin 8000000) (k : Fin 4) :
    idx_main_call0_v1 (idx_main_call0_v2 (ix2 n (0 : Fin 1))) k = ix2 n k :=
  funext fun a => Fin.ext (by match a with | ⟨0, _⟩ => rfl | ⟨1, _⟩ => rfl)

/-- The Euclidean length of row `n`: the square root of the sum of the squares (the sum starts from zero). -/
theorem norm_at (x1 : (⟨S8000000x4, .f32⟩ : BufTy).Contents (Elt Ideal)) (n : Fin 8000000) :
    val_main_v1 (F := Ideal) x1 (ix2 n (0 : Fin 1)) = Ideal.sqrt (∑ a : Fin 4, x1 (ix2 n a) * x1 (ix2 n a)) := by
  rw [val_main_v1_apply, val_main_call0_v2_apply, val_main_call0_v1_apply]
  simp only [idx_sum, val_main_call0_v0_apply, val_main_call0_cst_apply, Ideal.hostUnary_sqrt_def, Ideal.mulf_def,
    Ideal.ofBits_def, Ideal.ofBits_zero_f32, zero_add]

/-- The clamped length: the program takes `max ε length`, the specification `max length ε`. -/
theorem clip_at (x1 : (⟨S8000000x4, .f32⟩ : BufTy).Contents (Elt Ideal)) (n : Fin 8000000) :
    val_main_v2 (F := Ideal) x1 (ix2 n (0 : Fin 1)) = len (fun a => x1 (ix2 n a)) := by
  rw [val_main_v2_apply, val_main_call1_v1_apply, val_main_call1_v0_apply, val_main_cst_apply, norm_at]
  simp only [Ideal.maximumf_def, Ideal.ofBits_def]
  exact max_comm _ _

/-- The clamped length is shared by the four components of a row. -/
theorem idx_v3 (n : Fin 8000000) (a : Fin 4) : idx_main_v3 (ix2 n a) = ix2 n (0 : Fin 1) :=
  funext fun b => Fin.ext (by match b with | ⟨0, _⟩ => rfl | ⟨1, _⟩ => rfl)

/-- The normalised quaternion, component `a` of row `n`. -/
theorem v4_at (x1 : (⟨S8000000x4, .f32⟩ : BufTy).Contents (Elt Ideal)) (n : Fin 8000000) (a : Fin 4) :
    val_main_v4 (F := Ideal) x1 (ix2 n a) = U x1 n a := by
  rw [val_main_v4_apply, val_main_v3_apply, idx_v3, clip_at]
  rfl

/-! ## The four columns w, x, y, z of the normalised quaternion -/

theorem idx_col0 (n : Fin 8000000) : idx_main_v5 (idx_main_v6 (ix1 n)) = ix2 n (0 : Fin 4) :=
  funext fun a => Fin.ext (by match a with | ⟨0, _⟩ => exact Nat.div_one _ | ⟨1, _⟩ => rfl)
theorem idx_col1 (n : Fin 8000000) : idx_main_v7 (idx_main_v8 (ix1 n)) = ix2 n (1 : Fin 4) :=
  funext fun a => Fin.ext (by match a with | ⟨0, _⟩ => exact Nat.div_one _ | ⟨1, _⟩ => rfl)
theorem idx_col2 (n : Fin 8000000) : idx_main_v9 (idx_main_v10 (ix1 n)) = ix2 n (2 : Fin 4) :=
  funext fun a => Fin.ext (by match a with | ⟨0, _⟩ => exact Nat.div_one _ | ⟨1, _⟩ => rfl)
theorem idx_col3 (n : Fin 8000000) : idx_main_v11 (idx_main_v12 (ix1 n)) = ix2 n (3 : Fin 4) :=
  funext fun a => Fin.ext (by match a with | ⟨0, _⟩ => exact Nat.div_one _ | ⟨1, _⟩ => rfl)

theorem w_at (x1 : (⟨S8000000x4, .f32⟩ : BufTy).Contents (Elt Ideal)) (n : Fin 8000000) :
    val_main_v6 (F := Ideal) x1 (ix1 n) = U x1 n 0 := by
  rw [val_main_v6_apply, val_main_v5_apply, idx_col0, v4_at]
theorem x_at (x1 : (⟨S8000000x4, .f32⟩ : BufTy).Contents (Elt Ideal)) (n : Fin 8000000) :
    val_main_v8 (F := Ideal) x1 (ix1 n) = U x1 n 1 := by
  rw [val_main_v8_apply, val_main_v7_apply, idx_col1, v4_at]
theorem y_at (x1 : (⟨S8000000x4, .f32⟩ : BufTy).Contents (Elt Ideal)) (n : Fin 8000000) :
    val_main_v10 (F := Ideal) x1 (ix1 n) = U x1 n 2 := by
  rw [val_main_v10_apply, val_main_v9_apply, idx_col2, v4_at]
theorem z_at (x1 : (⟨S8000000x4, .f32⟩ : BufTy).Contents (Elt Ideal)) (n : Fin 8000000) :
    val_main_v12 (F := Ideal) x1 (ix1 n) = U x1 n 3 := by
  rw [val_main_v12_apply, val_main_v11_apply, idx_col3, v4_at]

/-! ## The nine entries of the rotation matrix

Each entry is read down to the four columns and the words of 1 and 2, and the program's `(2 * a) * b` is regrouped
to the specification's `2 * (a * b)`. -/

theorem r00_at (x1 : (⟨S8000000x4, .f32⟩ : BufTy).Contents (Elt Ideal)) (n : Fin 8000000) :
    val_main_v21 (F := Ideal) x1 (ix1 n) = rot (U x1 n) 0 0 := by
  rw [val_main_v21_apply, val_main_v17_apply, val_main_v20_apply, val_main_v16_apply, val_main_v15_apply, val_main_v14_apply,
    val_main_v13_apply, val_main_v19_apply, val_main_v18_apply, val_main_cst_0_apply, val_main_cst_1_apply, val_main_cst_2_apply,
    y_at, z_at, Ideal.subf_def, Ideal.subf_def, Ideal.mulf_def, Ideal.mulf_def, Ideal.mulf_def, Ideal.mulf_def, mul_assoc, mul_assoc]
  rfl

theorem r01_at (x1 : (⟨S8000000x4, .f32⟩ : BufTy).Contents (Elt Ideal)) (n : Fin 8000000) :
    val_main_v28 (F := Ideal) x1 (ix1 n) = rot (U x1 n) 0 1 := by
  rw [val_main_v28_apply, val_main_v24_apply, val_main_v27_apply, val_main_v23_apply, val_main_v26_apply, val_main_v22_apply,
    val_main_v25_apply, val_main_cst_3_apply, val_main_cst_4_apply,
    w_at, x_at, y_at, z_at, Ideal.subf_def, Ideal.mulf_def, Ideal.mulf_def, Ideal.mulf_def, Ideal.mulf_def, mul_assoc, mul_assoc]
  rfl

theorem r02_at (x1 : (⟨S8000000x4, .f32⟩ : BufTy).Contents (Elt Ideal)) (n : Fin 8000000) :
    val_main_v35 (F := Ideal) x1 (ix1 n) = rot (U x1 n) 0 2 := by
  rw [val_main_v35_apply, val_main_v31_apply, val_main_v34_apply, val_main_v30_apply, val_main_v33_apply, val_main_v29_apply,
    val_main_v32_apply, val_main_cst_5_apply, val_main_cst_6_apply,
    w_at, x_at, y_at, z_at, Ideal.addf_def, Ideal.mulf_def, Ideal.mulf_def, Ideal.mulf_def, Ideal.mulf_def, mul_assoc, mul_assoc]
  rfl

theorem r10_at (x1 : (⟨S8000000x4, .f32⟩ : BufTy).Contents (Elt Ideal)) (n : Fin 8000000) :
    val_main_v42 (F := Ideal) x1 (ix1 n) = rot (U x1 n) 1 0 := by
  rw [val_main_v42_apply, val_main_v38_apply, val_main_v41_apply, val_main_v37_apply, val_main_v40_apply, val_main_v36_apply,
    val_main_v39_apply, val_main_cst_7_apply, val_main_cst_8_apply,
    w_at, x_at, y_at, z_at, Ideal.addf_def, Ideal.mulf_def, Ideal.mulf_def, Ideal.mulf_def, Ideal.mulf_def, mul_assoc, mul_assoc]
  rfl

theorem r11_at (x1 : (⟨S8000000x4, .f32⟩ : BufTy).Contents (Elt Ideal)) (n : Fin 8000000) :
    val_main_v51 (F := Ideal) x1 (ix1 n) = rot (U x1 n) 1 1 := by
  rw [val_main_v51_apply, val_main_v47_apply, val_main_v50_apply, val_main_v46_apply, val_main_v45_apply, val_main_v44_apply,
    val_main_v43_apply, val_main_v49_apply, val_main_v48_apply, val_main_cst_9_apply, val_main_cst_10_apply, val_main_cst_11_apply,
    x_at, z_at, Ideal.subf_def, Ideal.subf_def, Ideal.mulf_def, Ideal.mulf_def, Ideal.mulf_def, Ideal.mulf_def, mul_assoc, mul_assoc]
  rfl

theorem r12_at (x1 : (⟨S8000000x4, .f32⟩ : BufTy).Contents (Elt Ideal)) (n : Fin 8000000) :
    val_main_v58 (F := Ideal) x1 (ix1 n) = rot (U x1 n) 1 2 := by
  rw [val_main_v58_apply, val_main_v54_apply, val_main_v57_apply, val_main_v53_apply, val_main_v56_apply, val_main_v52_apply,
    val_main_v55_apply, val_main_cst_12_apply, val_main_cst_13_apply,
    w_at, x_at, y_at, z_at, Ideal.subf_def, Ideal.mulf_def, Ideal.mulf_def, Ideal.mulf_def, Ideal.mulf_def, mul_assoc, mul_assoc]
  rfl

theorem r20_at (x1 : (⟨S8000000x4, .f32⟩ : BufTy).Contents (Elt Ideal)) (n : Fin 8000000) :
    val_main_v65 (F := Ideal) x1 (ix1 n) = rot (U x1 n) 2 0 := by
  rw [val_main_v65_apply, val_main_v61_apply, val_main_v64_apply, val_main_v60_apply, val_main_v63_apply, val_main_v59_apply,
    val_main_v62_apply, val_main_cst_14_apply, val_main_cst_15_apply,
    w_at, x_at, y_at, z_at, Ideal.subf_def, Ideal.mulf_def, Ideal.mulf_def, Ideal.mulf_def, Ideal.mulf_def, mul_assoc, mul_assoc]
  rfl

theorem r21_at (x1 : (⟨S8000000x4, .f32⟩ : BufTy).Contents (Elt Ideal)) (n : Fin 8000000) :
    val_main_v72 (F := Ideal) x1 (ix1 n) = rot (U x1 n) 2 1 := by
  rw [val_main_v72_apply, val_main_v68_apply, val_main_v71_apply, val_main_v67_apply, val_main_v70_apply, val_main_v66_apply,
    val_main_v69_apply, val_main_cst_16_apply, val_main_cst_17_apply,
    w_at, x_at, y_at, z_at, Ideal.addf_def, Ideal.mulf_def, Ideal.mulf_def, Ideal.mulf_def, Ideal.mulf_def, mul_assoc, mul_assoc]
  rfl

theorem r22_at (x1 : (⟨S8000000x4, .f32⟩ : BufTy).Contents (Elt Ideal)) (n : Fin 8000000) :
    val_main_v81 (F := Ideal) x1 (ix1 n) = rot (U x1 n) 2 2 := by
  rw [val_main_v81_apply, val_main_v77_apply, val_main_v80_apply, val_main_v76_apply, val_main_v75_apply, val_main_v74_apply,
    val_main_v73_apply, val_main_v79_apply, val_main_v78_apply, val_main_cst_18_apply, val_main_cst_19_apply, val_main_cst_20_apply,
    x_at, y_at, Ideal.subf_def, Ideal.subf_def, Ideal.mulf_def, Ideal.mulf_def, Ideal.mulf_def, Ideal.mulf_def, mul_assoc, mul_assoc]
  rfl

/-! ## The nine columns, side by side

Each rotation entry is broadcast to a column `[N, 1]`; the nine columns are joined along the second axis, so the
joined array at `(n, c)` is column `c` at `(n, 0)`. -/

theorem c0_at (x1 : (⟨S8000000x4, .f32⟩ : BufTy).Contents (Elt Ideal)) (n : Fin 8000000) :
    val_main_v82 (F := Ideal) x1 (ix2 n (0 : Fin 1)) = rot (U x1 n) 0 0 := by
  rw [val_main_v82_apply, show idx_main_v82 (ix2 n (0 : Fin 1)) = ix1 n from
    funext fun a => Fin.ext (by match a with | ⟨0, _⟩ => rfl), r00_at]
theorem c1_at (x1 : (⟨S8000000x4, .f32⟩ : BufTy).Contents (Elt Ideal)) (n : Fin 8000000) :
    val_main_v83 (F := Ideal) x1 (ix2 n (0 : Fin 1)) = rot (U x1 n) 0 1 := by
  rw [val_main_v83_apply, show idx_main_v83 (ix2 n (0 : Fin 1)) = ix1 n from
    funext fun a => Fin.ext (by match a with | ⟨0, _⟩ => rfl), r01_at]
theorem c2_at (x1 : (⟨S8000000x4, .f32⟩ : BufTy).Contents (Elt Ideal)) (n : Fin 8000000) :
    val_main_v84 (F := Ideal) x1 (ix2 n (0 : Fin 1)) = rot (U x1 n) 0 2 := by
  rw [val_main_v84_apply, show idx_main_v84 (ix2 n (0 : Fin 1)) = ix1 n from
    funext fun a => Fin.ext (by match a with | ⟨0, _⟩ => rfl), r02_at]
theorem c3_at (x1 : (⟨S8000000x4, .f32⟩ : BufTy).Contents (Elt Ideal)) (n : Fin 8000000) :
    val_main_v85 (F := Ideal) x1 (ix2 n (0 : Fin 1)) = rot (U x1 n) 1 0 := by
  rw [val_main_v85_apply, show idx_main_v85 (ix2 n (0 : Fin 1)) = ix1 n from
    funext fun a => Fin.ext (by match a with | ⟨0, _⟩ => rfl), r10_at]
theorem c4_at (x1 : (⟨S8000000x4, .f32⟩ : BufTy).Contents (Elt Ideal)) (n : Fin 8000000) :
    val_main_v86 (F := Ideal) x1 (ix2 n (0 : Fin 1)) = rot (U x1 n) 1 1 := by
  rw [val_main_v86_apply, show idx_main_v86 (ix2 n (0 : Fin 1)) = ix1 n from
    funext fun a => Fin.ext (by match a with | ⟨0, _⟩ => rfl), r11_at]
theorem c5_at (x1 : (⟨S8000000x4, .f32⟩ : BufTy).Contents (Elt Ideal)) (n : Fin 8000000) :
    val_main_v87 (F := Ideal) x1 (ix2 n (0 : Fin 1)) = rot (U x1 n) 1 2 := by
  rw [val_main_v87_apply, show idx_main_v87 (ix2 n (0 : Fin 1)) = ix1 n from
    funext fun a => Fin.ext (by match a with | ⟨0, _⟩ => rfl), r12_at]
theorem c6_at (x1 : (⟨S8000000x4, .f32⟩ : BufTy).Contents (Elt Ideal)) (n : Fin 8000000) :
    val_main_v88 (F := Ideal) x1 (ix2 n (0 : Fin 1)) = rot (U x1 n) 2 0 := by
  rw [val_main_v88_apply, show idx_main_v88 (ix2 n (0 : Fin 1)) = ix1 n from
    funext fun a => Fin.ext (by match a with | ⟨0, _⟩ => rfl), r20_at]
theorem c7_at (x1 : (⟨S8000000x4, .f32⟩ : BufTy).Contents (Elt Ideal)) (n : Fin 8000000) :
    val_main_v89 (F := Ideal) x1 (ix2 n (0 : Fin 1)) = rot (U x1 n) 2 1 := by
  rw [val_main_v89_apply, show idx_main_v89 (ix2 n (0 : Fin 1)) = ix1 n from
    funext fun a => Fin.ext (by match a with | ⟨0, _⟩ => rfl), r21_at]
theorem c8_at (x1 : (⟨S8000000x4, .f32⟩ : BufTy).Contents (Elt Ideal)) (n : Fin 8000000) :
    val_main_v90 (F := Ideal) x1 (ix2 n (0 : Fin 1)) = rot (U x1 n) 2 2 := by
  rw [val_main_v90_apply, show idx_main_v90 (ix2 n (0 : Fin 1)) = ix1 n from
    funext fun a => Fin.ext (by match a with | ⟨0, _⟩ => rfl), r22_at]

/-! The joined array at `(n, c)` is piece `c` of the nine unit-width pieces, read at `(n, 0)`: the `c` pieces before it
have total width `c`, and the two indices agree off the joined axis. -/

theorem p0_at (x1 : (⟨S8000000x4, .f32⟩ : BufTy).Contents (Elt Ideal)) (n : Fin 8000000) :
    val_main_v91 (F := Ideal) x1 (ix2 n (0 : Fin 9)) = rot (U x1 n) 0 0 := by
  unfold val_main_v91
  refine (concatenate_apply_piece _ _ _ (ix2 n (0 : Fin 9)) 0 (by show (0 : Nat) < 9; decide) S8000000x1
    (val_main_v82 (F := Ideal) x1) rfl rfl 0 rfl (ix2 n (0 : Fin 1)) (fun b hb => ?_) rfl).trans (c0_at x1 n)
  match b with
  | ⟨0, _⟩ => rfl
  | ⟨1, _⟩ => exact absurd rfl hb

theorem p1_at (x1 : (⟨S8000000x4, .f32⟩ : BufTy).Contents (Elt Ideal)) (n : Fin 8000000) :
    val_main_v91 (F := Ideal) x1 (ix2 n (1 : Fin 9)) = rot (U x1 n) 0 1 := by
  unfold val_main_v91
  refine (concatenate_apply_piece _ _ _ (ix2 n (1 : Fin 9)) 1 (by show (1 : Nat) < 9; decide) S8000000x1
    (val_main_v83 (F := Ideal) x1) rfl rfl 1 rfl (ix2 n (0 : Fin 1)) (fun b hb => ?_) rfl).trans (c1_at x1 n)
  match b with
  | ⟨0, _⟩ => rfl
  | ⟨1, _⟩ => exact absurd rfl hb

theorem p2_at (x1 : (⟨S8000000x4, .f32⟩ : BufTy).Contents (Elt Ideal)) (n : Fin 8000000) :
    val_main_v91 (F := Ideal) x1 (ix2 n (2 : Fin 9)) = rot (U x1 n) 0 2 := by
  unfold val_main_v91
  refine (concatenate_apply_piece _ _ _ (ix2 n (2 : Fin 9)) 2 (by show (2 : Nat) < 9; decide) S8000000x1
    (val_main_v84 (F := Ideal) x1) rfl rfl 2 rfl (ix2 n (0 : Fin 1)) (fun b hb => ?_) rfl).trans (c2_at x1 n)
  match b with
  | ⟨0, _⟩ => rfl
  | ⟨1, _⟩ => exact absurd rfl hb

theorem p3_at (x1 : (⟨S8000000x4, .f32⟩ : BufTy).Contents (Elt Ideal)) (n : Fin 8000000) :
    val_main_v91 (F := Ideal) x1 (ix2 n (3 : Fin 9)) = rot (U x1 n) 1 0 := by
  unfold val_main_v91
  refine (concatenate_apply_piece _ _ _ (ix2 n (3 : Fin 9)) 3 (by show (3 : Nat) < 9; decide) S8000000x1
    (val_main_v85 (F := Ideal) x1) rfl rfl 3 rfl (ix2 n (0 : Fin 1)) (fun b hb => ?_) rfl).trans (c3_at x1 n)
  match b with
  | ⟨0, _⟩ => rfl
  | ⟨1, _⟩ => exact absurd rfl hb

theorem p4_at (x1 : (⟨S8000000x4, .f32⟩ : BufTy).Contents (Elt Ideal)) (n : Fin 8000000) :
    val_main_v91 (F := Ideal) x1 (ix2 n (4 : Fin 9)) = rot (U x1 n) 1 1 := by
  unfold val_main_v91
  refine (concatenate_apply_piece _ _ _ (ix2 n (4 : Fin 9)) 4 (by show (4 : Nat) < 9; decide) S8000000x1
    (val_main_v86 (F := Ideal) x1) rfl rfl 4 rfl (ix2 n (0 : Fin 1)) (fun b hb => ?_) rfl).trans (c4_at x1 n)
  match b with
  | ⟨0, _⟩ => rfl
  | ⟨1, _⟩ => exact absurd rfl hb

theorem p5_at (x1 : (⟨S8000000x4, .f32⟩ : BufTy).Contents (Elt Ideal)) (n : Fin 8000000) :
    val_main_v91 (F := Ideal) x1 (ix2 n (5 : Fin 9)) = rot (U x1 n) 1 2 := by
  unfold val_main_v91
  refine (concatenate_apply_piece _ _ _ (ix2 n (5 : Fin 9)) 5 (by show (5 : Nat) < 9; decide) S8000000x1
    (val_main_v87 (F := Ideal) x1) rfl rfl 5 rfl (ix2 n (0 : Fin 1)) (fun b hb => ?_) rfl).trans (c5_at x1 n)
  match b with
  | ⟨0, _⟩ => rfl
  | ⟨1, _⟩ => exact absurd rfl hb

theorem p6_at (x1 : (⟨S8000000x4, .f32⟩ : BufTy).Contents (Elt Ideal)) (n : Fin 8000000) :
    val_main_v91 (F := Ideal) x1 (ix2 n (6 : Fin 9)) = rot (U x1 n) 2 0 := by
  unfold val_main_v91
  refine (concatenate_apply_piece _ _ _ (ix2 n (6 : Fin 9)) 6 (by show (6 : Nat) < 9; decide) S8000000x1
    (val_main_v88 (F := Ideal) x1) rfl rfl 6 rfl (ix2 n (0 : Fin 1)) (fun b hb => ?_) rfl).trans (c6_at x1 n)
  match b with
  | ⟨0, _⟩ => rfl
  | ⟨1, _⟩ => exact absurd rfl hb

theorem p7_at (x1 : (⟨S8000000x4, .f32⟩ : BufTy).Contents (Elt Ideal)) (n : Fin 8000000) :
    val_main_v91 (F := Ideal) x1 (ix2 n (7 : Fin 9)) = rot (U x1 n) 2 1 := by
  unfold val_main_v91
  refine (concatenate_apply_piece _ _ _ (ix2 n (7 : Fin 9)) 7 (by show (7 : Nat) < 9; decide) S8000000x1
    (val_main_v89 (F := Ideal) x1) rfl rfl 7 rfl (ix2 n (0 : Fin 1)) (fun b hb => ?_) rfl).trans (c7_at x1 n)
  match b with
  | ⟨0, _⟩ => rfl
  | ⟨1, _⟩ => exact absurd rfl hb

theorem p8_at (x1 : (⟨S8000000x4, .f32⟩ : BufTy).Contents (Elt Ideal)) (n : Fin 8000000) :
    val_main_v91 (F := Ideal) x1 (ix2 n (8 : Fin 9)) = rot (U x1 n) 2 2 := by
  unfold val_main_v91
  refine (concatenate_apply_piece _ _ _ (ix2 n (8 : Fin 9)) 8 (by show (8 : Nat) < 9; decide) S8000000x1
    (val_main_v90 (F := Ideal) x1) rfl rfl 8 rfl (ix2 n (0 : Fin 1)) (fun b hb => ?_) rfl).trans (c8_at x1 n)
  match b with
  | ⟨0, _⟩ => rfl
  | ⟨1, _⟩ => exact absurd rfl hb

/-! ## The nine columns of a point as a 3 × 3 block -/

/-- Row-major: the block entry `(i, j)` of point `n` is column `3 * i + j` of row `n`. -/
theorem idx_block (n : Fin 8000000) (i j : Fin 3) (c : Fin 9) (hc : c.val = 3 * i.val + j.val) :
    idx_main_v92 (ix3 n i j) = ix2 n c :=
  funext fun a => Fin.ext (by
    have hi := i.isLt
    have hj := j.isLt
    match a with
    | ⟨0, _⟩ => show ((n.val * 3 + i.val) * 3 + j.val) / 9 = n.val; omega
    | ⟨1, _⟩ => show ((n.val * 3 + i.val) * 3 + j.val) % 9 = c.val; omega)

/-- The reshaped block is the rotation matrix of the normalised quaternion. -/
theorem block_at (x1 : (⟨S8000000x4, .f32⟩ : BufTy).Contents (Elt Ideal)) (n : Fin 8000000) (i j : Fin 3) :
    val_main_v92 (F := Ideal) x1 (ix3 n i j) = rot (U x1 n) i j := by
  rw [val_main_v92_apply]
  match i, j with
  | ⟨0, _⟩, ⟨0, _⟩ => rw [idx_block n _ _ 0 rfl]; exact p0_at x1 n
  | ⟨0, _⟩, ⟨1, _⟩ => rw [idx_block n _ _ 1 rfl]; exact p1_at x1 n
  | ⟨0, _⟩, ⟨2, _⟩ => rw [idx_block n _ _ 2 rfl]; exact p2_at x1 n
  | ⟨1, _⟩, ⟨0, _⟩ => rw [idx_block n _ _ 3 rfl]; exact p3_at x1 n
  | ⟨1, _⟩, ⟨1, _⟩ => rw [idx_block n _ _ 4 rfl]; exact p4_at x1 n
  | ⟨1, _⟩, ⟨2, _⟩ => rw [idx_block n _ _ 5 rfl]; exact p5_at x1 n
  | ⟨2, _⟩, ⟨0, _⟩ => rw [idx_block n _ _ 6 rfl]; exact p6_at x1 n
  | ⟨2, _⟩, ⟨1, _⟩ => rw [idx_block n _ _ 7 rfl]; exact p7_at x1 n
  | ⟨2, _⟩, ⟨2, _⟩ => rw [idx_block n _ _ 8 rfl]; exact p8_at x1 n

/-! ## The scales, the scaled block and its contraction -/

/-- The scale of column `j` is shared by the three rows of a block. -/
theorem idx_scale (n : Fin 8000000) (i j : Fin 3) : idx_main_v93 (idx_main_v94 (ix3 n i j)) = ix2 n j :=
  funext fun a => Fin.ext (by match a with | ⟨0, _⟩ => rfl | ⟨1, _⟩ => rfl)

theorem scale_at (x0 : (⟨S8000000x3, .f32⟩ : BufTy).Contents (Elt Ideal)) (n : Fin 8000000) (i j : Fin 3) :
    val_main_v94 (F := Ideal) x0 (ix3 n i j) = Ideal.exp (x0 (ix2 n j)) := by
  rw [val_main_v94_apply, val_main_v93_apply, idx_scale, val_main_v0_apply]
  rfl

/-- The scaled block: `R i j * exp (s j)`. -/
theorem scaled_at (x0 : (⟨S8000000x3, .f32⟩ : BufTy).Contents (Elt Ideal)) (x1 : (⟨S8000000x4, .f32⟩ : BufTy).Contents (Elt Ideal))
    (n : Fin 8000000) (i j : Fin 3) :
    val_main_v95 (F := Ideal) x0 x1 (ix3 n i j) = rot (U x1 n) i j * Ideal.exp (x0 (ix2 n j)) := by
  rw [val_main_v95_apply, block_at, scale_at]
  rfl

/-- The contraction's left operand at `(n, i, k)` and term `j` is the block entry `(i, j)` … -/
theorem lidx_at (n : Fin 8000000) (i k j : Fin 3) : lidx_main_v96 (ix3 n i k) j = ix3 n i j :=
  funext fun a => Fin.ext (by match a with | ⟨0, _⟩ => rfl | ⟨1, _⟩ => rfl | ⟨2, _⟩ => rfl)
/-- … and its right operand the block entry `(k, j)`. -/
theorem ridx_at (n : Fin 8000000) (i k j : Fin 3) : ridx_main_v96 (ix3 n i k) j = ix3 n k j :=
  funext fun a => Fin.ext (by match a with | ⟨0, _⟩ => rfl | ⟨1, _⟩ => rfl | ⟨2, _⟩ => rfl)

/-- **The reference at an element** is the covariance entry of the specification. -/
theorem ref_apply (x0 : (⟨S8000000x3, .f32⟩ : BufTy).Contents (Elt Ideal)) (x1 : (⟨S8000000x4, .f32⟩ : BufTy).Contents (Elt Ideal))
    (n : Fin 8000000) (i k : Fin 3) :
    Cert.ReferenceIdeal.Read.val_main_v96 (F := Ideal) x0 x1 (ix3 n i k)
      = Cert.Cov.cov (fun j => x0 (ix2 n j)) (fun a => x1 (ix2 n a)) i k := by
  rw [val_main_v96_apply]
  unfold Cert.Cov.cov Cert.Cov.outer
  refine Finset.sum_congr rfl fun j _ => ?_
  rw [lidx_at, ridx_at, scaled_at, scaled_at]
  rfl

end Cert.RefRead

end
-- ==== Proof.lean ====
/-
  The claim: the Pallas kernel that computes, for each of 8,000,000 Gaussians, the covariance
  `(R · diag (exp s)) · (R · diag (exp s))ᵀ` from log-scales `s` and a raw quaternion `q` (normalised by its
  length clamped below at 1e-12, `R` its rotation matrix), against the jnp reference that builds `R` as an
  `[N, 3, 3]` array, scales its columns and contracts `RS` with itself.

  Over the extended reals both programs compute the function `Cert.Cov.G` of the two argument arrays
  (Proof/Spec.lean).  The kernel works on the transposed `[C, N]` arrays, block by block, and writes each
  covariance entry as three products `(R i j * R k j) * (e j * e j)`; the reference writes it as the sum over `j` of
  `(R i j * e j) * (R k j * e j)` and doubles its products as `(2 * a) * b` where the kernel has `2 * (a * b)`.  The two
  agree by commutativity and associativity of `+`, `*` and `max`, which hold at infinite values too: the
  precondition (finite inputs) is not used.

  The three frames: the two kernel programs' are the generated class-A frames; the reference's is its generated
  run with the result dropped.  The idealization rewrote nothing, so `preserves` is `True`.  The value claim puts
  the kernel's run read as `G` (Proof/KernelArr.lean over Proof/KernelBlock.lean) beside the reference's run read
  as `G` (Proof/RefRead.lean).
-/
import proofs.«104599_j21534966022500_1_alg».proof.Defs
import proofs.«104599_j21534966022500_1_alg».proof.Proof.Gen.Kernel
import proofs.«104599_j21534966022500_1_alg».proof.Proof.Gen.Kernel.Skeleton
import proofs.«104599_j21534966022500_1_alg».proof.Proof.Gen.Kernel.Launch
import proofs.«104599_j21534966022500_1_alg».proof.Proof.Gen.Kernel.Points
import proofs.«104599_j21534966022500_1_alg».proof.Proof.Gen.Kernel.Frame
import proofs.«104599_j21534966022500_1_alg».proof.Proof.Gen.KernelIdeal
import proofs.«104599_j21534966022500_1_alg».proof.Proof.Gen.KernelIdeal.Skeleton
import proofs.«104599_j21534966022500_1_alg».proof.Proof.Gen.KernelIdeal.Launch
import proofs.«104599_j21534966022500_1_alg».proof.Proof.Gen.KernelIdeal.Points
import proofs.«104599_j21534966022500_1_alg».proof.Proof.Gen.KernelIdeal.Frame
import proofs.«104599_j21534966022500_1_alg».proof.Proof.Gen.ReferenceIdeal
import proofs.«104599_j21534966022500_1_alg».proof.Proof.Gen.Pre_finite_inputs
import proofs.«104599_j21534966022500_1_alg».proof.Proof.Gen.ReferenceIdeal.Run
import proofs.«104599_j21534966022500_1_alg».proof.Proof.Gen.ReferenceIdeal.Read
import proofs.«104599_j21534966022500_1_alg».proof.Proof.Spec
import proofs.«104599_j21534966022500_1_alg».proof.Proof.KernelBlock
import proofs.«104599_j21534966022500_1_alg».proof.Proof.KernelArr
import proofs.«104599_j21534966022500_1_alg».proof.Proof.RefRead
import Idealize.ShloMosaic.Adequacy
import Idealize.ShloMosaic.Init

noncomputable section

namespace Cert.Proof

open Idealize.ShloMosaic Idealize.ShloMosaic.TcCoe Idealize.ShloMosaic.ValueIdx Idealize.SL.Sem

/-- The reference's result term is `G` of the arguments: index by index it is the covariance entry. -/
theorem ref_is_G (x0 : (⟨Cert.ReferenceIdeal.S8000000x3, .f32⟩ : BufTy).Contents (Elt Ideal))
    (x1 : (⟨Cert.ReferenceIdeal.S8000000x4, .f32⟩ : BufTy).Contents (Elt Ideal)) :
    Cert.ReferenceIdeal.Read.val_main_v96 (F := Ideal) x0 x1 = Cert.Cov.G x0 x1 := by
  funext I
  obtain ⟨n, i, k, rfl⟩ : ∃ (n : Fin 8000000) (i k : Fin 3), I = ix3 n i k := ⟨I 0, I 1, I 2, eq_ix3 I⟩
  rw [Cert.Cov.G_apply]
  exact Cert.RefRead.ref_apply x0 x1 n i k

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at `G` of arguments that agree. -/
theorem algebraic : Cert.algebraic_KernelIdeal_ReferenceIdeal := by
  intro m ρ m' ρ' _ hagree
  refine ⟨fun c => Cert.Cov.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelArr.run m ρ Cert.KernelBlock.out_apply, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v96_eq, ref_is_G, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
